-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S400000 : Shape := ⟨1, ![400000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg22 : FVec F S256 .f32) (main_arg23 : FVec F S256x1 .f32) (main_arg24 : FVec F S1 .f32) (main_arg25 : FVec F S1 .f32) (main_v63 : IVec S_ 1) (main_v67 : IVec S_ 1) : IVec S_ 1 :=
  let main_v68 : IVec S_ 1 := andi main_v63 main_v67
  let main_v69 : FVec F S256 .f32 := Host.absf main_arg22
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg23
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg24
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg25
  let main_cst_32 : FVec F S_ .f32 := constant S_ .f32 0x7F800000#32
  fn_part5 (F := F) main_v83 main_v84 main_cst_32

def fn_part3 {F : FTy → Type} [FloatOps F] (main_arg19 : FVec F S256 .f32) (main_arg20 : FVec F S128x256 .f32) (main_arg21 : FVec F S128x256 .f32) (main_arg22 : FVec F S256 .f32) (main_arg23 : FVec F S256x1 .f32) (main_arg24 : FVec F S1 .f32) (main_arg25 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg19
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg20
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128x256 .f32 := Host.absf main_arg21
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg22 main_arg23 main_arg24 main_arg25 main_v63 main_v67

def fn_part2 {F : FTy → Type} [FloatOps F] (main_arg15 : FVec F S128x256 .f32) (main_arg16 : FVec F S256 .f32) (main_arg17 : FVec F S128x256 .f32) (main_arg18 : FVec F S128x256 .f32) (main_arg19 : FVec F S256 .f32) (main_arg20 : FVec F S128x256 .f32) (main_arg21 : FVec F S128x256 .f32) (main_arg22 : FVec F S256 .f32) (main_arg23 : FVec F S256x1 .f32) (main_arg24 : FVec F S1 .f32) (main_arg25 : FVec F S1 .f32) (main_v33 : IVec S_ 1) : IVec S_ 1 :=
  let main_v34 : FVec F S128x256 .f32 := Host.absf main_arg15
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg16
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg17
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128x256 .f32 := Host.absf main_arg18
  let main_cst_18 : FVec F S_ .f32 := constant S_ .f32 0x7F800000#32
  let main_v50 : FVec F S128x256 .f32 := broadcastInDim S128x256 ![] bcast_S_S128x256 main_cst_18
  fn_part3 (F := F) main_arg19 main_arg20 main_arg21 main_arg22 main_arg23 main_arg24 main_arg25 main_v48 main_v49 main_v50

def fn_part1 {F : FTy → Type} [FloatOps F] (main_arg12 : FVec F S128x256 .f32) (main_arg13 : FVec F S256 .f32) (main_arg14 : FVec F S128x256 .f32) (main_arg15 : FVec F S128x256 .f32) (main_arg16 : FVec F S256 .f32) (main_arg17 : FVec F S128x256 .f32) (main_arg18 : FVec F S128x256 .f32) (main_arg19 : FVec F S256 .f32) (main_arg20 : FVec F S128x256 .f32) (main_arg21 : FVec F S128x256 .f32) (main_arg22 : FVec F S256 .f32) (main_arg23 : FVec F S256x1 .f32) (main_arg24 : FVec F S1 .f32) (main_arg25 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg12
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg13
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg14
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_v33

def fn {F : FTy → Type} [FloatOps F] (main_arg0 : FVec F S100000x128 .f32) (main_arg1 : FVec F S200000x128 .f32) (main_arg2 : FVec F S100000x128 .f32) (main_arg3 : IVec S400000 32) (main_arg4 : IVec S400000 32) (main_arg5 : IVec S400000 32) (main_arg6 : IVec S400000 32) (main_arg7 : IVec S400000 32) (main_arg8 : IVec S400000 32) (main_arg9 : IVec S400000 32) (main_arg10 : IVec S400000 32) (main_arg11 : FVec F S128x256 .f32) (main_arg12 : FVec F S128x256 .f32) (main_arg13 : FVec F S256 .f32) (main_arg14 : FVec F S128x256 .f32) (main_arg15 : FVec F S128x256 .f32) (main_arg16 : FVec F S256 .f32) (main_arg17 : FVec F S128x256 .f32) (main_arg18 : FVec F S128x256 .f32) (main_arg19 : FVec F S256 .f32) (main_arg20 : FVec F S128x256 .f32) (main_arg21 : FVec F S128x256 .f32) (main_arg22 : FVec F S256 .f32) (main_arg23 : FVec F S256x1 .f32) (main_arg24 : FVec F S1 .f32) (main_arg25 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x256 .f32 := Host.absf main_arg11
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S200000x128 : Shape := ⟨2, ![200000, 128]⟩
abbrev S400000 : Shape := ⟨1, ![400000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S200000x1 : Shape := ⟨2, ![200000, 1]⟩
abbrev S100000x1 : Shape := ⟨2, ![100000, 1]⟩
abbrev S1x256 : Shape := ⟨2, ![1, 256]⟩
abbrev S100000x256 : Shape := ⟨2, ![100000, 256]⟩
abbrev S10000x128 : Shape := ⟨2, ![10000, 128]⟩
abbrev S10000x1 : Shape := ⟨2, ![10000, 1]⟩
abbrev S10000x256 : Shape := ⟨2, ![10000, 256]⟩
abbrev S1x1 : Shape := ⟨2, ![1, 1]⟩
abbrev S20000x128 : Shape := ⟨2, ![20000, 128]⟩
abbrev S20000x1 : Shape := ⟨2, ![20000, 1]⟩
abbrev S20000x256 : Shape := ⟨2, ![20000, 256]⟩
abbrev S20000 : Shape := ⟨1, ![20000]⟩

abbrev nBuf : Space → Nat
  | .hbm => 113
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S100000x128, .f32⟩
  | .hbm, ⟨3, _⟩ => ⟨S400000, .i32⟩
  | .hbm, ⟨4, _⟩ => ⟨S400000, .i32⟩
  | .hbm, ⟨5, _⟩ => ⟨S400000, .i32⟩
  | .hbm, ⟨6, _⟩ => ⟨S400000, .i32⟩
  | .hbm, ⟨7, _⟩ => ⟨S400000, .i32⟩
  | .hbm, ⟨8, _⟩ => ⟨S400000, .i32⟩
  | .hbm, ⟨9, _⟩ => ⟨S400000, .i32⟩
  | .hbm, ⟨10, _⟩ => ⟨S400000, .i32⟩
  | .hbm, ⟨11, _⟩ => ⟨S128x256, .f32⟩
  | .hbm, ⟨12, _⟩ => ⟨S128x256, .f32⟩
  | .hbm, ⟨13, _⟩ => ⟨S256, .f32⟩
  | .hbm, ⟨14, _⟩ => ⟨S128x256, .f32⟩
  | .hbm, ⟨15, _⟩ => ⟨S128x256, .f32⟩
  | .hbm, ⟨16, _⟩ => ⟨S256, .f32⟩
  | .hbm, ⟨17, _⟩ => ⟨S128x256, .f32⟩
  | .hbm, ⟨18, _⟩ => ⟨S128x256, .f32⟩
  | .hbm, ⟨19, _⟩ => ⟨S256, .f32⟩
  | .hbm, ⟨20, _⟩ => ⟨S128x256, .f32⟩
  | .hbm, ⟨21, _⟩ => ⟨S128x256, .f32⟩
  | .hbm, ⟨22, _⟩ => ⟨S256, .f32⟩
  | .hbm, ⟨23, _⟩ => ⟨S256x1, .f32⟩
  | .hbm, ⟨24, _⟩ => ⟨S1, .f32⟩
  | .hbm, ⟨25, _⟩ => ⟨S1, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x128, .f32⟩
  | .hbm, ⟨35, _⟩ => ⟨S_, .f32⟩
  | .hbm, ⟨36, _⟩ => ⟨S200000x128, .f32⟩
  | .hbm, ⟨37, _⟩ => ⟨S400000x1, .i32⟩
  | .hbm, ⟨38, _⟩ => ⟨S200000x128, .f32⟩
  | .hbm, ⟨39, _⟩ => ⟨S_, .f32⟩
  | .hbm, ⟨40, _⟩ => ⟨S400000x1, .f32⟩
  | .hbm, ⟨41, _⟩ => ⟨S_, .f32⟩
  | .hbm, ⟨42, _⟩ => ⟨S200000x1, .f32⟩
  | .hbm, ⟨43, _⟩ => ⟨S400000x1, .i32⟩
  | .hbm, ⟨44, _⟩ => ⟨S200000x1, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x128, .f32⟩
  | .hbm, ⟨54, _⟩ => ⟨S_, .f32⟩
  | .hbm, ⟨55, _⟩ => ⟨S100000x128, .f32⟩
  | .hbm, ⟨56, _⟩ => ⟨S400000x1, .i32⟩
  | .hbm, ⟨57, _⟩ => ⟨S100000x128, .f32⟩
  | .hbm, ⟨58, _⟩ => ⟨S_, .f32⟩
  | .hbm, ⟨59, _⟩ => ⟨S400000x1, .f32⟩
  | .hbm, ⟨60, _⟩ => ⟨S_, .f32⟩
  | .hbm, ⟨61, _⟩ => ⟨S100000x1, .f32⟩
  | .hbm, ⟨62, _⟩ => ⟨S400000x1, .i32⟩
  | .hbm, ⟨63, _⟩ => ⟨S100000x1, .f32⟩
  | .hbm, ⟨64, _⟩ => ⟨S_, .i32⟩
  | .hbm, ⟨65, _⟩ => ⟨S400000, .i32⟩
  | .hbm, ⟨66, _⟩ => ⟨S400000, .i1⟩
  | .hbm, ⟨67, _⟩ => ⟨S_, .i32⟩
  | .hbm, ⟨68, _⟩ => ⟨S400000, .i32⟩
  | .hbm, ⟨69, _⟩ => ⟨S400000, .i32⟩
  | .hbm, ⟨70, _⟩ => ⟨S400000, .i32⟩
  | .hbm, ⟨71, _⟩ => ⟨S400000x1, .i32⟩
  | .hbm, ⟨72, _⟩ => ⟨S400000x128, .f32⟩
  | .hbm, ⟨73, _⟩ => ⟨S_, .f32⟩
  | .hbm, ⟨74, _⟩ => ⟨S100000x128, .f32⟩
  | .hbm, ⟨75, _⟩ => ⟨S400000x1, .i32⟩
  | .hbm, ⟨76, _⟩ => ⟨S100000x128, .f32⟩
  | .hbm, ⟨77, _⟩ => ⟨S_, .f32⟩
  | .hbm, ⟨78, _⟩ => ⟨S400000x1, .f32⟩
  | .hbm, ⟨79, _⟩ => ⟨S_, .f32⟩
  | .hbm, ⟨80, _⟩ => ⟨S100000x1, .f32⟩
  | .hbm, ⟨81, _⟩ => ⟨S400000x1, .i32⟩
  | .hbm, ⟨82, _⟩ => ⟨S100000x1, .f32⟩
  | .hbm, ⟨83, _⟩ => ⟨S_, .i32⟩
  | .hbm, ⟨84, _⟩ => ⟨S400000, .i32⟩
  | .hbm, ⟨85, _⟩ => ⟨S400000, .i1⟩
  | .hbm, ⟨86, _⟩ => ⟨S_, .i32⟩
  | .hbm, ⟨87, _⟩ => ⟨S400000, .i32⟩
  | .hbm, ⟨88, _⟩ => ⟨S400000, .i32⟩
  | .hbm, ⟨89, _⟩ => ⟨S400000, .i32⟩
  | .hbm, ⟨90, _⟩ => ⟨S400000x1, .i32⟩
  | .hbm, ⟨91, _⟩ => ⟨S400000x128, .f32⟩
  | .hbm, ⟨92, _⟩ => ⟨S_, .f32⟩
  | .hbm, ⟨93, _⟩ => ⟨S100000x128, .f32⟩
  | .hbm, ⟨94, _⟩ => ⟨S400000x1, .i32⟩
  | .hbm, ⟨95, _⟩ => ⟨S100000x128, .f32⟩
  | .hbm, ⟨96, _⟩ => ⟨S_, .f32⟩
  | .hbm, ⟨97, _⟩ => ⟨S400000x1, .f32⟩
  | .hbm, ⟨98, _⟩ => ⟨S_, .f32⟩
  | .hbm, ⟨99, _⟩ => ⟨S100000x1, .f32⟩
  | .hbm, ⟨100, _⟩ => ⟨S400000x1, .i32⟩
  | .hbm, ⟨101, _⟩ => ⟨S100000x1, .f32⟩
  | .hbm, ⟨102, _⟩ => ⟨S1x256, .f32⟩
  | .hbm, ⟨103, _⟩ => ⟨S100000x256, .f32⟩
  | .hbm, ⟨104, _⟩ => ⟨S128x256, .f32⟩
  | .hbm, ⟨105, _⟩ => ⟨S256, .f32⟩
  | .hbm, ⟨106, _⟩ => ⟨S1x256, .f32⟩
  | .hbm, ⟨107, _⟩ => ⟨S100000x256, .f32⟩
  | .hbm, ⟨108, _⟩ => ⟨S1x256, .f32⟩
  | .hbm, ⟨109, _⟩ => ⟨S1x256, .f32⟩
  | .hbm, ⟨110, _⟩ => ⟨S1x1, .f32⟩
  | .hbm, ⟨111, _⟩ => ⟨S1x1, .f32⟩
  | .hbm, ⟨112, _⟩ => ⟨S200000x1, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S10000x256, .f32⟩
  | .local _ .vmem, ⟨10, _⟩ => ⟨S10000x256, .f32⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S1x256, .f32⟩
  | .local _ .vmem, ⟨25, _⟩ => ⟨S10000x256, .f32⟩
  | .local _ .vmem, ⟨26, _⟩ => ⟨S10000x256, .f32⟩
  | .local _ .vmem, ⟨27, _⟩ => ⟨S20000x128, .f32⟩
  | .local _ .vmem, ⟨28, _⟩ => ⟨S20000x128, .f32⟩
  | .local _ .vmem, ⟨29, _⟩ => ⟨S20000x1, .f32⟩
  | .local _ .vmem, ⟨30, _⟩ => ⟨S20000x1, .f32⟩
  | .local _ .vmem, ⟨31, _⟩ => ⟨S20000x128, .f32⟩
  | .local _ .vmem, ⟨32, _⟩ => ⟨S20000x128, .f32⟩
  | .local _ .vmem, ⟨33, _⟩ => ⟨S128x256, .f32⟩
  | .local _ .vmem, ⟨34, _⟩ => ⟨S128x256, .f32⟩
  | .local _ .vmem, ⟨35, _⟩ => ⟨S1x256, .f32⟩
  | .local _ .vmem, ⟨36, _⟩ => ⟨S1x256, .f32⟩
  | .local _ .vmem, ⟨37, _⟩ => ⟨S1x1, .f32⟩
  | .local _ .vmem, ⟨38, _⟩ => ⟨S1x1, .f32⟩
  | .local _ .vmem, ⟨39, _⟩ => ⟨S20000x1, .f32⟩
  | .local _ .vmem, ⟨40, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_6 : Ref sig .tc := ⟨.hbm, 58, rfl⟩
abbrev main_v24 : Ref sig .tc := ⟨.hbm, 59, rfl⟩
abbrev main_cst_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_8 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_11 : Ref sig .tc := ⟨.hbm, 77, rfl⟩
abbrev main_v38 : Ref sig .tc := ⟨.hbm, 78, rfl⟩
abbrev main_cst_12 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_13 : Ref sig .tc := ⟨.hbm, 83, rfl⟩
abbrev main_v42 : Ref sig .tc := ⟨.hbm, 84, rfl⟩
abbrev main_v43 : Ref sig .tc := ⟨.hbm, 85, rfl⟩
abbrev main_c_14 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_15 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_16 : Ref sig .tc := ⟨.hbm, 96, rfl⟩
abbrev main_v52 : Ref sig .tc := ⟨.hbm, 97, rfl⟩
abbrev main_cst_17 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg9_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem9_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S20000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S_S400000x1 : S_.BroadcastsInDim S400000x1 (![] : Fin 0 → Fin S400000x1.rank)
  bcast_S_S200000x1 : S_.BroadcastsInDim S200000x1 (![] : Fin 0 → Fin S200000x1.rank)
  bcast_S_S100000x128 : S_.BroadcastsInDim S100000x128 (![] : Fin 0 → Fin S100000x128.rank)
  bcast_S_S100000x1 : S_.BroadcastsInDim S100000x1 (![] : Fin 0 → Fin S100000x1.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  shapeCasts_S128x256_S128x256 : S128x256.ShapeCasts S128x256
  shapeCasts_S256x1_S1x256 : S256x1.ShapeCasts S1x256
  shapeCasts_S1_S1x1 : S1.ShapeCasts S1x1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x128 : S20000x1.Broadcasts S20000x128
  broadcasts_S1x256_S20000x256 : S1x256.Broadcasts S20000x256
  reduces_S20000x256_S20000 : S20000x256.Reduces [1] S20000
  shapeCasts_S20000_S20000x1 : S20000.ShapeCasts S20000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  scatter_S200000x1_S400000x1_S400000x1_1_0_0_1_wf : ScatterDims.WF S200000x1 S400000x1 S400000x1 [1] [0] [0] 1
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  gather_S200000x128_S400000x1_S400000x128_1_0_n_n_0_1_1128_wf : GatherDims.WF S200000x128 S400000x1 S400000x128 [1] [0] [] [0] [] 1 ![1, 128]
  dot_S10000x128_S128x256_S10000x256_1_0_0_1_n_n_wf : DotDims.WF S10000x128 S128x256 S10000x256 [1] [0] [0] [1] [] []
  dot_S20000x128_S128x256_S20000x256_1_0_0_1_n_n_wf : DotDims.WF S20000x128 S128x256 S20000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x256.size a ≤ S100000x256.size a
  hwx0_6 : ∀ i : grid0.Coords, EltTy.bits .f32 = 32 ∨ (Rect.block (s := S100000x256) S10000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x256.size a ≤ S100000x256.size a
  hwx1_9 : ∀ i : grid1.Coords, EltTy.bits .f32 = 32 ∨ (Rect.block (s := S100000x256) S10000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x128.size a ≤ S200000x128.size a
  hwx2_0 : ∀ i : grid2.Coords, EltTy.bits .f32 = 32 ∨ (Rect.block (s := S200000x128) S20000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S200000x1.size a
  hwx2_1 : ∀ i : grid2.Coords, EltTy.bits .f32 = 32 ∨ (Rect.block (s := S200000x1) S20000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x128.size a ≤ S200000x128.size a
  hwx2_2 : ∀ i : grid2.Coords, EltTy.bits .f32 = 32 ∨ (Rect.block (s := S200000x128) S20000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S20000x1.size a ≤ S200000x1.size a
  hwx2_9 : ∀ i : grid2.Coords, EltTy.bits .f32 = 32 ∨ (Rect.block (s := S200000x1) S20000x1.size (cc2_transform_9 i) (hinb2_9 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf

abbrev win0_0 : Pipeline.Window sig grid0 :=
  Pipeline.Window.ofSpec (Memref.whole main_v23) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S10000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S10000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v61) S10000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v9) S20000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S20000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v65) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v66) S20000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S400000 : Shape := ⟨1, ![400000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S200000x1 : Shape := ⟨2, ![200000, 1]⟩
abbrev S200000x256 : Shape := ⟨2, ![200000, 256]⟩
abbrev S1x256 : Shape := ⟨2, ![1, 256]⟩
abbrev S100000x1 : Shape := ⟨2, ![100000, 1]⟩
abbrev S100000x256 : Shape := ⟨2, ![100000, 256]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S200000x128, .f32⟩
  | 2 => ⟨S100000x128, .f32⟩
  | 3 => ⟨S400000, .i32⟩
  | 4 => ⟨S400000, .i32⟩
  | 5 => ⟨S400000, .i32⟩
  | 6 => ⟨S400000, .i32⟩
  | 7 => ⟨S400000, .i32⟩
  | 8 => ⟨S400000, .i32⟩
  | 9 => ⟨S400000, .i32⟩
  | 10 => ⟨S400000, .i32⟩
  | 11 => ⟨S128x256, .f32⟩
  | 12 => ⟨S128x256, .f32⟩
  | 13 => ⟨S256, .f32⟩
  | 14 => ⟨S128x256, .f32⟩
  | 15 => ⟨S128x256, .f32⟩
  | 16 => ⟨S256, .f32⟩
  | 17 => ⟨S128x256, .f32⟩
  | 18 => ⟨S128x256, .f32⟩
  | 19 => ⟨S256, .f32⟩
  | 20 => ⟨S128x256, .f32⟩
  | 21 => ⟨S128x256, .f32⟩
  | 22 => ⟨S256, .f32⟩
  | 23 => ⟨S256x1, .f32⟩
  | 24 => ⟨S1, .f32⟩
  | 25 => ⟨S1, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S_, .f32⟩
  | 36 => ⟨S200000x128, .f32⟩
  | 37 => ⟨S400000x1, .i32⟩
  | 38 => ⟨S200000x128, .f32⟩
  | 39 => ⟨S_, .f32⟩
  | 40 => ⟨S400000x1, .f32⟩
  | 41 => ⟨S_, .f32⟩
  | 42 => ⟨S200000x1, .f32⟩
  | 43 => ⟨S400000x1, .i32⟩
  | 44 => ⟨S200000x1, .f32⟩
  | 45 => ⟨S_, .f32⟩
  | 46 => ⟨S200000x1, .f32⟩
  | 47 => ⟨S200000x1, .f32⟩
  | 48 => ⟨S200000x128, .f32⟩
  | 49 => ⟨S200000x128, .f32⟩
  | 50 => ⟨S200000x256, .f32⟩
  | 51 => ⟨S1x256, .f32⟩
  | 52 => ⟨S200000x256, .f32⟩
  | 53 => ⟨S200000x256, .f32⟩
  | 54 => ⟨S200000x256, .f32⟩
  | 55 => ⟨S200000x256, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x128, .f32⟩
  | 65 => ⟨S_, .f32⟩
  | 66 => ⟨S100000x128, .f32⟩
  | 67 => ⟨S400000x1, .i32⟩
  | 68 => ⟨S100000x128, .f32⟩
  | 69 => ⟨S_, .f32⟩
  | 70 => ⟨S400000x1, .f32⟩
  | 71 => ⟨S_, .f32⟩
  | 72 => ⟨S100000x1, .f32⟩
  | 73 => ⟨S400000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x256, .f32⟩
  | 81 => ⟨S1x256, .f32⟩
  | 82 => ⟨S100000x256, .f32⟩
  | 83 => ⟨S100000x256, .f32⟩
  | 84 => ⟨S100000x256, .f32⟩
  | 85 => ⟨S100000x256, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S_, .f32⟩
  | 96 => ⟨S100000x128, .f32⟩
  | 97 => ⟨S400000x1, .i32⟩
  | 98 => ⟨S100000x128, .f32⟩
  | 99 => ⟨S_, .f32⟩
  | 100 => ⟨S400000x1, .f32⟩
  | 101 => ⟨S_, .f32⟩
  | 102 => ⟨S100000x1, .f32⟩
  | 103 => ⟨S400000x1, .i32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S100000x256, .f32⟩
  | 111 => ⟨S1x256, .f32⟩
  | 112 => ⟨S100000x256, .f32⟩
  | 113 => ⟨S100000x256, .f32⟩
  | 114 => ⟨S100000x256, .f32⟩
  | 115 => ⟨S100000x256, .f32⟩
  | 116 => ⟨S100000x256, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .f32⟩
  | 127 => ⟨S100000x128, .f32⟩
  | _ => ⟨S100000x128, .f32⟩

abbrev hbmTy0_1 (i : Nat) : BufTy := match i % 128 with
  | 0 => ⟨S400000x1, .i32⟩
  | 1 => ⟨S100000x128, .f32⟩
  | 2 => ⟨S_, .f32⟩
  | 3 => ⟨S400000x1, .f32⟩
  | 4 => ⟨S_, .f32⟩
  | 5 => ⟨S100000x1, .f32⟩
  | 6 => ⟨S400000x1, .i32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S100000x256, .f32⟩
  | 14 => ⟨S1x256, .f32⟩
  | 15 => ⟨S100000x256, .f32⟩
  | 16 => ⟨S100000x256, .f32⟩
  | 17 => ⟨S100000x256, .f32⟩
  | 18 => ⟨S100000x256, .f32⟩
  | 19 => ⟨S_, .f32⟩
  | 20 => ⟨S200000x256, .f32⟩
  | 21 => ⟨S200000x256, .f32⟩
  | 22 => ⟨S_, .f32⟩
  | 23 => ⟨S100000x256, .f32⟩
  | 24 => ⟨S100000x256, .f32⟩
  | 25 => ⟨S_, .f32⟩
  | 26 => ⟨S100000x256, .f32⟩
  | 27 => ⟨S100000x256, .f32⟩
  | 28 => ⟨S200000x1, .f32⟩
  | 29 => ⟨S1x1, .f32⟩
  | 30 => ⟨S200000x1, .f32⟩
  | 31 => ⟨S200000x1, .f32⟩
  | 32 => ⟨S_, .f32⟩
  | 33 => ⟨S200000x1, .f32⟩
  | 34 => ⟨S200000x1, .i1⟩
  | 35 => ⟨S1x1, .f32⟩
  | 36 => ⟨S200000x1, .f32⟩
  | 37 => ⟨S200000x1, .f32⟩
  | 38 => ⟨S200000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_10 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_cst_14 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_15 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_16 : Ref sig .tc := ⟨.hbm, 117, rfl⟩
abbrev main_v73 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_18 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_cst_20 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_21 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_call0_cst : Ref sig .tc := ⟨.hbm, 147, rfl⟩
abbrev main_call0_v0 : Ref sig .tc := ⟨.hbm, 148, rfl⟩
abbrev main_v97 : Ref sig .tc := ⟨.hbm, 149, rfl⟩
abbrev main_call1_cst : Ref sig .tc := ⟨.hbm, 150, rfl⟩
abbrev main_call1_v0 : Ref sig .tc := ⟨.hbm, 151, rfl⟩
abbrev main_v98 : Ref sig .tc := ⟨.hbm, 152, rfl⟩
abbrev main_call2_cst : Ref sig .tc := ⟨.hbm, 153, rfl⟩
abbrev main_call2_v0 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_22 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S_S400000x1 : S_.BroadcastsInDim S400000x1 (![] : Fin 0 → Fin S400000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x256_S100000x256_0_1 : S1x256.BroadcastsInDim S100000x256 (![0, 1] : Fin 2 → Fin S100000x256.rank)
  bcast_S_S200000x256 : S_.BroadcastsInDim S200000x256 (![] : Fin 0 → Fin S200000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  scatter_S200000x1_S400000x1_S400000x1_1_0_0_1_wf : ScatterDims.WF S200000x1 S400000x1 S400000x1 [1] [0] [0] 1
  dot_S200000x128_S128x256_S200000x256_1_0_0_1_n_n_wf : DotDims.WF S200000x128 S128x256 S200000x256 [1] [0] [0] [1] [] []
  gather_S200000x128_S400000x1_S400000x128_1_0_n_n_0_1_1128_wf : GatherDims.WF S200000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  dot_S100000x128_S128x256_S100000x256_1_0_0_1_n_n_wf : DotDims.WF S100000x128 S128x256 S100000x256 [1] [0] [0] [1] [] []
  dot_S200000x256_S256x1_S200000x1_1_0_0_1_n_n_wf : DotDims.WF S200000x256 S256x1 S200000x1 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KWalk.lean ====
import proofs.«425960_j50689204027567_2_alg».proof.Proof.Gen.KernelIdeal.Frame
import proofs.«425960_j50689204027567_2_alg».proof.Proof.Gen.ReferenceIdeal.Read
import Idealize.ShloMosaic.Lib.StableHlo.Run
import Idealize.ShloMosaic.Lib.Pipeline.Value

/-!
  What each array holds at the boundaries of the idealized kernel program's run.

  The run's buffer contents are a fold through @main: a stretch of host operations, then a region whose
  write-backs land in its output array, three times over.  Read back through that fold, each result
  array is what its own region's write-backs leave, and each array a region reads is a term of host
  operations over the launch memory: the summed neighbour rows and the neighbour counts are the SAME
  gather / scatter-add terms the reference program computes (named here by the reference's stages), the
  weights and the root features are arguments as launched, and the biases, the head's weight row, offset
  and slope are reshapes (and, for the node type with two relations, sums) of arguments.
-/

set_option maxRecDepth 16384

noncomputable section

namespace Cert.KernelIdeal.KWalk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The buffers each stretch of host operations writes

Each operation writes its one result buffer, so a stretch writes the buffers of this list and no other; a buffer
outside the list holds after the stretch what it held before. -/

/-- The result buffers of the first stretch, in order. -/
def written0 : List (Ref sig .tc) :=
  [
    main_c, main_v0, main_v1, main_c_0, main_v2, main_v3, main_v4, main_v5, main_v6, main_cst,
    main_v7, main_v8, main_v9, main_cst_1, main_v10, main_cst_2, main_v11, main_v12, main_v13, main_c_3,
    main_v14, main_v15, main_c_4, main_v16, main_v17, main_v18, main_v19, main_v20, main_cst_5, main_v21,
    main_v22, main_v23, main_cst_6, main_v24, main_cst_7, main_v25, main_v26, main_v27, main_c_8, main_v28,
    main_v29, main_c_9, main_v30, main_v31, main_v32, main_v33, main_v34, main_cst_10, main_v35, main_v36,
    main_v37, main_cst_11, main_v38, main_cst_12, main_v39, main_v40, main_v41, main_c_13, main_v42, main_v43,
    main_c_14, main_v44, main_v45, main_v46, main_v47, main_v48, main_cst_15, main_v49, main_v50, main_v51,
    main_cst_16, main_v52, main_cst_17, main_v53, main_v54, main_v55, main_v56 ]

/-- The result buffers of the second stretch. -/
def written1 : List (Ref sig .tc) := [main_v58, main_v59, main_v60]

/-- The result buffers of the third stretch. -/
def written2 : List (Ref sig .tc) := [main_v62, main_v63, main_v64, main_v65]

set_option maxHeartbeats 4000000 in
theorem writes0 : (hostOps0 (F := Ideal)).Forall fun op => op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem writes1 : (hostOps1 (F := Ideal)).Forall fun op => op.writes ⊆ (written1.map (Proc.devRef (τ := τ) .tc)).toFinset := by
  simp only [hostOps1, List.Forall, StableHlo.binary_writes, StableHlo.reshape_writes, Finset.singleton_subset_iff, List.mem_toFinset]
  repeat' apply And.intro
  all_goals exact List.mem_map_of_mem (by decide)

theorem writes2 : (hostOps2 (F := Ideal)).Forall fun op => op.writes ⊆ (written2.map (Proc.devRef (τ := τ) .tc)).toFinset := by
  simp only [hostOps2, List.Forall, StableHlo.reshape_writes, Finset.singleton_subset_iff, List.mem_toFinset]
  repeat' apply And.intro
  all_goals exact List.mem_map_of_mem (by decide)

/-! ## Walking a buffer back through the fold

A buffer that a stretch does not write and that is not one of a region's arrays is carried unchanged across that
boundary; composing the boundaries it crosses reads it back to an earlier point of the run. -/

theorem W1_back (c : Dev nD) (r : Ref sig .tc) (h0 : r ∉ written0) :
    W1 m ρ c (Proc.devRef .tc r) = W0 m ρ c (Proc.devRef .tc r) :=
  StableHlo.after_of_writes_sub _ _ writes0 h0

theorem W3_W2 (c : Dev nD) (r : Ref sig .tc) (h1 : r ∉ written1) :
    W3 m ρ c (Proc.devRef .tc r) = W2 m ρ c (Proc.devRef .tc r) :=
  StableHlo.after_of_writes_sub _ _ writes1 h1

theorem W5_W4 (c : Dev nD) (r : Ref sig .tc) (h2 : r ∉ written2) :
    W5 m ρ c (Proc.devRef .tc r) = W4 m ρ c (Proc.devRef .tc r) :=
  StableHlo.after_of_writes_sub _ _ writes2 h2

theorem W3_W1 (c : Dev nD) (r : Ref sig .tc) (h1 : r ∉ written1) (a0 : ∀ w, Pipeline.arrRef spec0 w ≠ r) :
    W3 m ρ c (Proc.devRef .tc r) = W1 m ρ c (Proc.devRef .tc r) :=
  (W3_W2 m ρ c r h1).trans (W2_of_ne m ρ c r a0)

theorem W4_W1 (c : Dev nD) (r : Ref sig .tc) (a1 : ∀ w, Pipeline.arrRef spec1 w ≠ r) (h1 : r ∉ written1)
    (a0 : ∀ w, Pipeline.arrRef spec0 w ≠ r) :
    W4 m ρ c (Proc.devRef .tc r) = W1 m ρ c (Proc.devRef .tc r) :=
  (W4_of_ne m ρ c r a1).trans (W3_W1 m ρ c r h1 a0)

theorem W5_W1 (c : Dev nD) (r : Ref sig .tc) (h2 : r ∉ written2) (a1 : ∀ w, Pipeline.arrRef spec1 w ≠ r)
    (h1 : r ∉ written1) (a0 : ∀ w, Pipeline.arrRef spec0 w ≠ r) :
    W5 m ρ c (Proc.devRef .tc r) = W1 m ρ c (Proc.devRef .tc r) :=
  (W5_W4 m ρ c r h2).trans (W4_W1 m ρ c r a1 h1 a0)

theorem W2_back (c : Dev nD) (r : Ref sig .tc) (a0 : ∀ w, Pipeline.arrRef spec0 w ≠ r) (h0 : r ∉ written0) :
    W2 m ρ c (Proc.devRef .tc r) = W0 m ρ c (Proc.devRef .tc r) :=
  (W2_of_ne m ρ c r a0).trans (W1_back m ρ c r h0)

theorem W3_back (c : Dev nD) (r : Ref sig .tc) (h1 : r ∉ written1) (a0 : ∀ w, Pipeline.arrRef spec0 w ≠ r)
    (h0 : r ∉ written0) : W3 m ρ c (Proc.devRef .tc r) = W0 m ρ c (Proc.devRef .tc r) :=
  (W3_W1 m ρ c r h1 a0).trans (W1_back m ρ c r h0)

theorem W4_back (c : Dev nD) (r : Ref sig .tc) (a1 : ∀ w, Pipeline.arrRef spec1 w ≠ r) (h1 : r ∉ written1)
    (a0 : ∀ w, Pipeline.arrRef spec0 w ≠ r) (h0 : r ∉ written0) :
    W4 m ρ c (Proc.devRef .tc r) = W0 m ρ c (Proc.devRef .tc r) :=
  (W4_W1 m ρ c r a1 h1 a0).trans (W1_back m ρ c r h0)

theorem W5_back (c : Dev nD) (r : Ref sig .tc) (h2 : r ∉ written2) (a1 : ∀ w, Pipeline.arrRef spec1 w ≠ r)
    (h1 : r ∉ written1) (a0 : ∀ w, Pipeline.arrRef spec0 w ≠ r) (h0 : r ∉ written0) :
    W5 m ρ c (Proc.devRef .tc r) = W0 m ρ c (Proc.devRef .tc r) :=
  (W5_W1 m ρ c r h2 a1 h1 a0).trans (W1_back m ρ c r h0)

/-! ## The results -/

theorem out_v66 (c : Dev nD) : W6 m ρ c (Proc.devRef .tc main_v66) = (dat2 (V5 m ρ) c).arrAt 9 cfg2.N :=
  W6_arr m ρ c 9

theorem out_v61 (c : Dev nD) : W6 m ρ c (Proc.devRef .tc main_v61) = (dat1 (V3 m ρ) c).arrAt 9 cfg1.N :=
  calc W6 m ρ c (Proc.devRef .tc main_v61)
    _ = W5 m ρ c (Proc.devRef .tc main_v61) := W6_of_ne m ρ c main_v61 (by decide)
    _ = W4 m ρ c (Proc.devRef .tc main_v61) := W5_W4 m ρ c main_v61 (by decide)
    _ = (dat1 (V3 m ρ) c).arrAt 9 cfg1.N := W4_arr m ρ c 9

theorem out_v57 (c : Dev nD) : W6 m ρ c (Proc.devRef .tc main_v57) = (dat0 (V1 m ρ) c).arrAt 6 cfg0.N :=
  calc W6 m ρ c (Proc.devRef .tc main_v57)
    _ = W5 m ρ c (Proc.devRef .tc main_v57) := W6_of_ne m ρ c main_v57 (by decide)
    _ = W4 m ρ c (Proc.devRef .tc main_v57) := W5_W4 m ρ c main_v57 (by decide)
    _ = W3 m ρ c (Proc.devRef .tc main_v57) := W4_of_ne m ρ c main_v57 (by decide)
    _ = W2 m ρ c (Proc.devRef .tc main_v57) := W3_W2 m ρ c main_v57 (by decide)
    _ = (dat0 (V1 m ρ) c).arrAt 6 cfg0.N := W2_arr m ρ c 6

/-! ## What region 0 (one relation, 100000 rows) reads -/

theorem in0_0 (c : Dev nD) : V1 m ρ c (Pipeline.arrRef spec0 0)
    = Cert.ReferenceIdeal.Read.val_main_v82 (F := Ideal) (m ((c : Thread nD τ).loc main_arg0)) (m ((c : Thread nD τ).loc main_arg7)) (m ((c : Thread nD τ).loc main_arg8)) := by
  show StableHlo.after hostOps0 (W0 m ρ c) (Proc.devRef .tc main_v23) = _
  after_results_simp
  rfl

theorem in0_1 (c : Dev nD) : V1 m ρ c (Pipeline.arrRef spec0 1)
    = Cert.ReferenceIdeal.Read.val_main_v86 (F := Ideal) (m ((c : Thread nD τ).loc main_arg8)) := by
  show StableHlo.after hostOps0 (W0 m ρ c) (Proc.devRef .tc main_v27) = _
  after_results_simp
  rfl

theorem in0_2 (c : Dev nD) : V1 m ρ c (Pipeline.arrRef spec0 2) = m ((c : Thread nD τ).loc main_arg2) :=
  W1_back m ρ c main_arg2 (by decide)

theorem in0_3 (c : Dev nD) : V1 m ρ c (Pipeline.arrRef spec0 3) = m ((c : Thread nD τ).loc main_arg17) :=
  W1_back m ρ c main_arg17 (by decide)

theorem in0_4 (c : Dev nD) : V1 m ρ c (Pipeline.arrRef spec0 4) = m ((c : Thread nD τ).loc main_arg18) :=
  W1_back m ρ c main_arg18 (by decide)

theorem in0_5 (c : Dev nD) : V1 m ρ c (Pipeline.arrRef spec0 5)
    = shapeCast S1x256 (m ((c : Thread nD τ).loc main_arg19)) shapeCasts_S256_S1x256 := by
  show StableHlo.after hostOps0 (W0 m ρ c) (Proc.devRef .tc main_v56) = _
  after_results_simp
  rfl

/-! ## What region 1 (two relations, 100000 rows) reads -/

theorem in1_0 (c : Dev nD) : V3 m ρ c (Pipeline.arrRef spec1 0)
    = Cert.ReferenceIdeal.Read.val_main_v33 (F := Ideal) (m ((c : Thread nD τ).loc main_arg1)) (m ((c : Thread nD τ).loc main_arg5)) (m ((c : Thread nD τ).loc main_arg6)) := by
  refine (W3_W1 m ρ c main_v37 (by decide) (by decide)).trans ?_
  show StableHlo.after hostOps0 (W0 m ρ c) (Proc.devRef .tc main_v37) = _
  after_results_simp
  rfl

theorem in1_1 (c : Dev nD) : V3 m ρ c (Pipeline.arrRef spec1 1)
    = Cert.ReferenceIdeal.Read.val_main_v37 (F := Ideal) (m ((c : Thread nD τ).loc main_arg6)) := by
  refine (W3_W1 m ρ c main_v41 (by decide) (by decide)).trans ?_
  show StableHlo.after hostOps0 (W0 m ρ c) (Proc.devRef .tc main_v41) = _
  after_results_simp
  rfl

theorem in1_2 (c : Dev nD) : V3 m ρ c (Pipeline.arrRef spec1 2)
    = Cert.ReferenceIdeal.Read.val_main_v57 (F := Ideal) (m ((c : Thread nD τ).loc main_arg2)) (m ((c : Thread nD τ).loc main_arg9)) (m ((c : Thread nD τ).loc main_arg10)) := by
  refine (W3_W1 m ρ c main_v51 (by decide) (by decide)).trans ?_
  show StableHlo.after hostOps0 (W0 m ρ c) (Proc.devRef .tc main_v51) = _
  after_results_simp
  rfl

theorem in1_3 (c : Dev nD) : V3 m ρ c (Pipeline.arrRef spec1 3)
    = Cert.ReferenceIdeal.Read.val_main_v61 (F := Ideal) (m ((c : Thread nD τ).loc main_arg10)) := by
  refine (W3_W1 m ρ c main_v55 (by decide) (by decide)).trans ?_
  show StableHlo.after hostOps0 (W0 m ρ c) (Proc.devRef .tc main_v55) = _
  after_results_simp
  rfl

theorem in1_4 (c : Dev nD) : V3 m ρ c (Pipeline.arrRef spec1 4) = m ((c : Thread nD τ).loc main_arg0) :=
  W3_back m ρ c main_arg0 (by decide) (by decide) (by decide)

theorem in1_5 (c : Dev nD) : V3 m ρ c (Pipeline.arrRef spec1 5) = m ((c : Thread nD τ).loc main_arg14) :=
  W3_back m ρ c main_arg14 (by decide) (by decide) (by decide)

theorem in1_6 (c : Dev nD) : V3 m ρ c (Pipeline.arrRef spec1 6) = m ((c : Thread nD τ).loc main_arg20) :=
  W3_back m ρ c main_arg20 (by decide) (by decide) (by decide)

theorem in1_7 (c : Dev nD) : V3 m ρ c (Pipeline.arrRef spec1 7)
    = addf (F := Ideal) (s := S128x256) (φ := .f32) (m ((c : Thread nD τ).loc main_arg15)) (m ((c : Thread nD τ).loc main_arg21)) := by
  show StableHlo.after hostOps1 (W2 m ρ c) (Proc.devRef .tc main_v58) = _
  after_results
  rw [W2_back m ρ c main_arg15 (by decide) (by decide), W2_back m ρ c main_arg21 (by decide) (by decide)]

theorem in1_8 (c : Dev nD) : V3 m ρ c (Pipeline.arrRef spec1 8)
    = shapeCast S1x256 (addf (F := Ideal) (s := S256) (φ := .f32) (m ((c : Thread nD τ).loc main_arg16)) (m ((c : Thread nD τ).loc main_arg22))) shapeCasts_S256_S1x256 := by
  show StableHlo.after hostOps1 (W2 m ρ c) (Proc.devRef .tc main_v60) = _
  after_results
  rw [W2_back m ρ c main_arg16 (by decide) (by decide), W2_back m ρ c main_arg22 (by decide) (by decide)]
  rfl

/-! ## What region 2 (one relation and the scalar head, 200000 rows) reads -/

theorem in2_0 (c : Dev nD) : V5 m ρ c (Pipeline.arrRef spec2 0)
    = Cert.ReferenceIdeal.Read.val_main_v9 (F := Ideal) (m ((c : Thread nD τ).loc main_arg0)) (m ((c : Thread nD τ).loc main_arg3)) (m ((c : Thread nD τ).loc main_arg4)) := by
  refine (W5_W1 m ρ c main_v9 (by decide) (by decide) (by decide) (by decide)).trans ?_
  show StableHlo.after hostOps0 (W0 m ρ c) (Proc.devRef .tc main_v9) = _
  after_results_simp
  rfl

theorem in2_1 (c : Dev nD) : V5 m ρ c (Pipeline.arrRef spec2 1)
    = Cert.ReferenceIdeal.Read.val_main_v13 (F := Ideal) (m ((c : Thread nD τ).loc main_arg4)) := by
  refine (W5_W1 m ρ c main_v13 (by decide) (by decide) (by decide) (by decide)).trans ?_
  show StableHlo.after hostOps0 (W0 m ρ c) (Proc.devRef .tc main_v13) = _
  after_results_simp
  rfl

theorem in2_2 (c : Dev nD) : V5 m ρ c (Pipeline.arrRef spec2 2) = m ((c : Thread nD τ).loc main_arg1) :=
  W5_back m ρ c main_arg1 (by decide) (by decide) (by decide) (by decide) (by decide)

theorem in2_3 (c : Dev nD) : V5 m ρ c (Pipeline.arrRef spec2 3) = m ((c : Thread nD τ).loc main_arg11) :=
  W5_back m ρ c main_arg11 (by decide) (by decide) (by decide) (by decide) (by decide)

theorem in2_4 (c : Dev nD) : V5 m ρ c (Pipeline.arrRef spec2 4) = m ((c : Thread nD τ).loc main_arg12) :=
  W5_back m ρ c main_arg12 (by decide) (by decide) (by decide) (by decide) (by decide)

theorem in2_5 (c : Dev nD) : V5 m ρ c (Pipeline.arrRef spec2 5)
    = shapeCast S1x256 (m ((c : Thread nD τ).loc main_arg13)) shapeCasts_S256_S1x256 := by
  show StableHlo.after hostOps2 (W4 m ρ c) (Proc.devRef .tc main_v62) = _
  after_results
  rw [W4_back m ρ c main_arg13 (by decide) (by decide) (by decide) (by decide)]
  rfl

theorem in2_6 (c : Dev nD) : V5 m ρ c (Pipeline.arrRef spec2 6)
    = shapeCast S1x256 (m ((c : Thread nD τ).loc main_arg23)) shapeCasts_S256x1_S1x256 := by
  show StableHlo.after hostOps2 (W4 m ρ c) (Proc.devRef .tc main_v63) = _
  after_results
  rw [W4_back m ρ c main_arg23 (by decide) (by decide) (by decide) (by decide)]
  rfl

theorem in2_7 (c : Dev nD) : V5 m ρ c (Pipeline.arrRef spec2 7)
    = shapeCast S1x1 (m ((c : Thread nD τ).loc main_arg24)) shapeCasts_S1_S1x1 := by
  show StableHlo.after hostOps2 (W4 m ρ c) (Proc.devRef .tc main_v64) = _
  after_results
  rw [W4_back m ρ c main_arg24 (by decide) (by decide) (by decide) (by decide)]
  rfl

theorem in2_8 (c : Dev nD) : V5 m ρ c (Pipeline.arrRef spec2 8)
    = shapeCast S1x1 (m ((c : Thread nD τ).loc main_arg25)) shapeCasts_S1_S1x1 := by
  show StableHlo.after hostOps2 (W4 m ρ c) (Proc.devRef .tc main_v65) = _
  after_results
  rw [W4_back m ρ c main_arg25 (by decide) (by decide) (by decide) (by decide)]
  rfl

end Cert.KernelIdeal.KWalk

end
-- ==== Proof.KMat.lean ====
import proofs.«425960_j50689204027567_2_alg».proof.Proof.Gen.KernelIdeal
import Idealize.ShloMosaic.Lib.Pipeline.Value
import Idealize.ShloMosaic.Lib.ValueIdx
import Idealize.ShloMosaic.PureOps.Ideal.Laws

/-!
  The kernels' matrix products read at an entry.

  At the ideal instance a product of a row block `[R, 128]` with a `[128, 256]` matrix into a zero
  accumulator is, at `(p, q)`, the plain sum `Σₖ l (p, k) · r (k, q)` over the 128 contracted coordinates,
  whatever precision the operation names.  The operand indices of the printed dimension records are
  computed once here, axis by axis, and the contraction's index type is carried to `Fin 128`.
-/

noncomputable section

namespace Cert.KernelIdeal.KMat

open Cert.KernelIdeal Idealize.ShloMosaic Idealize.ShloMosaic.ValueIdx
open scoped BigOperators

/-! ### The 10000-row block product -/

theorem lhsA_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem lhsA_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
theorem rhsA_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
theorem rhsA_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- Entry `(p, q)` of a 10000-row block times a `[128, 256]` matrix, accumulated into zero: the sum over the
    128 contracted coordinates. -/
theorem matmulA_apply (l : FVec Ideal S10000x128 .f32) (r : FVec Ideal S128x256 .f32) (prec : Option ContractPrecision)
    (p : Fin 10000) (q : Fin 256) :
    matmul dot_S10000x128_S128x256_S10000x256_1_0_0_1_n_n prec l r (constant S10000x256 .f32 0x00000000#32) (ix2 p q)
      = ∑ k : Fin 128, l (ix2 p k) * r (ix2 k q) := by
  refine (Ideal.matmul_constant_zero_apply dot_S10000x128_S128x256_S10000x256_1_0_0_1_n_n prec l r (ix2 p q)).trans ?_
  rw [← Equiv.sum_comp (ValueIdx.contrEquiv1 dot_S10000x128_S128x256_S10000x256_1_0_0_1_n_n 128 rfl rfl).symm]
  refine Finset.sum_congr rfl fun k _ => ?_
  have hk := ValueIdx.contrEquiv1_symm_val dot_S10000x128_S128x256_S10000x256_1_0_0_1_n_n 128 rfl rfl k
  have el : dot_S10000x128_S128x256_S10000x256_1_0_0_1_n_n.lhsIdx (ix2 p q) ((ValueIdx.contrEquiv1 dot_S10000x128_S128x256_S10000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x256_S10000x256_1_0_0_1_n_n.rhsIdx (ix2 p q) ((ValueIdx.contrEquiv1 dot_S10000x128_S128x256_S10000x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The 20000-row block product -/

theorem lhsB_0 (i : S20000x256.Idx) (q : dot_S20000x128_S128x256_S20000x256_1_0_0_1_n_n.contr.Idx) :
    (dot_S20000x128_S128x256_S20000x256_1_0_0_1_n_n.lhsIdx i q 0).val = (i 0).val := by
  unfold DotDims.lhsIdx
  rw [dif_neg (show ¬(0 : Fin S20000x128.rank) ∈ dot_S20000x128_S128x256_S20000x256_1_0_0_1_n_n.lhsBatch by decide), dif_pos (show (0 : Fin S20000x128.rank) ∈ dot_S20000x128_S128x256_S20000x256_1_0_0_1_n_n.lhsNonContracting by decide)]
  rfl
theorem lhsB_1 (i : S20000x256.Idx) (q : dot_S20000x128_S128x256_S20000x256_1_0_0_1_n_n.contr.Idx) :
    (dot_S20000x128_S128x256_S20000x256_1_0_0_1_n_n.lhsIdx i q 1).val = (q ⟨0, by decide⟩).val :=
  dot_S20000x128_S128x256_S20000x256_1_0_0_1_n_n.lhsIdx_val_of_single rfl i q
theorem rhsB_0 (i : S20000x256.Idx) (q : dot_S20000x128_S128x256_S20000x256_1_0_0_1_n_n.contr.Idx) :
    (dot_S20000x128_S128x256_S20000x256_1_0_0_1_n_n.rhsIdx i q 0).val = (q ⟨0, by decide⟩).val :=
  dot_S20000x128_S128x256_S20000x256_1_0_0_1_n_n.rhsIdx_val_of_single rfl i q
theorem rhsB_1 (i : S20000x256.Idx) (q : dot_S20000x128_S128x256_S20000x256_1_0_0_1_n_n.contr.Idx) :
    (dot_S20000x128_S128x256_S20000x256_1_0_0_1_n_n.rhsIdx i q 1).val = (i 1).val := by
  unfold DotDims.rhsIdx
  rw [dif_neg (show ¬(1 : Fin S128x256.rank) ∈ dot_S20000x128_S128x256_S20000x256_1_0_0_1_n_n.rhsBatch by decide), dif_pos (show (1 : Fin S128x256.rank) ∈ dot_S20000x128_S128x256_S20000x256_1_0_0_1_n_n.rhsNonContracting by decide)]
  rfl

/-- Entry `(p, q)` of a 20000-row block times a `[128, 256]` matrix, accumulated into zero: the sum over the
    128 contracted coordinates. -/
theorem matmulB_apply (l : FVec Ideal S20000x128 .f32) (r : FVec Ideal S128x256 .f32) (prec : Option ContractPrecision)
    (p : Fin 20000) (q : Fin 256) :
    matmul dot_S20000x128_S128x256_S20000x256_1_0_0_1_n_n prec l r (constant S20000x256 .f32 0x00000000#32) (ix2 p q)
      = ∑ k : Fin 128, l (ix2 p k) * r (ix2 k q) := by
  refine (Ideal.matmul_constant_zero_apply dot_S20000x128_S128x256_S20000x256_1_0_0_1_n_n prec l r (ix2 p q)).trans ?_
  rw [← Equiv.sum_comp (ValueIdx.contrEquiv1 dot_S20000x128_S128x256_S20000x256_1_0_0_1_n_n 128 rfl rfl).symm]
  refine Finset.sum_congr rfl fun k _ => ?_
  have hk := ValueIdx.contrEquiv1_symm_val dot_S20000x128_S128x256_S20000x256_1_0_0_1_n_n 128 rfl rfl k
  have el : dot_S20000x128_S128x256_S20000x256_1_0_0_1_n_n.lhsIdx (ix2 p q) ((ValueIdx.contrEquiv1 dot_S20000x128_S128x256_S20000x256_1_0_0_1_n_n 128 rfl rfl).symm k) = ix2 p k := funext fun a => Fin.ext (by
    match a with
    | ⟨0, _⟩ => exact lhsB_0 _ _
    | ⟨1, _⟩ => exact (lhsB_1 _ _).trans hk)
  have er : dot_S20000x128_S128x256_S20000x256_1_0_0_1_n_n.rhsIdx (ix2 p q) ((ValueIdx.contrEquiv1 dot_S20000x128_S128x256_S20000x256_1_0_0_1_n_n 128 rfl rfl).symm k) = ix2 k q := funext fun a => Fin.ext (by
    match a with
    | ⟨0, _⟩ => exact (rhsB_0 _ _).trans hk
    | ⟨1, _⟩ => exact rhsB_1 _ _)
  rw [el, er]

end Cert.KernelIdeal.KMat

end
-- ==== Proof.LibLayout.lean ====
import Idealize.ShloMosaic.Lib.Pipeline.Value
import Idealize.ShloMosaic.Lib.ValueIdx
import Idealize.ShloMosaic.Lib.ValueLayout

/-!
  Layout operations of small rank read at an index: the keepdims column forms.

  A column `[a, 1]` broadcast along its unit axis, a vector `[a]` recast as a column `[a, 1]`, and a column
  `[a, 1]` recast as a row `[1, a]`: each reads its operand at the one coordinate that is not on a unit axis.
-/

namespace Cert.LibLayout

open Idealize.ShloMosaic Idealize.ShloMosaic.ValueIdx

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column recast as a `[1, a]` row reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.LibLayout
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import proofs.«425960_j50689204027567_2_alg».proof.Proof.LibReal

/-!
  The arithmetic that joins the two programs, on extended reals.

  A row of the layer's output is `relu (mean·Wl + x·Wr + b)`; the two programs add the three terms in
  different orders, and for the node type that receives two relations one of them first adds the two root
  weights and the two biases and multiplies once.  Addition of extended reals is commutative and
  associative, so the orders agree; `x·(w₁ + w₂) = x·w₁ + x·w₂` is used on REAL entries only (it fails at
  infinities of opposite signs).
-/

open scoped BigOperators

namespace Cert.Spec

open Cert.LibReal

/-- `Σ xₖ (aₖ + bₖ) = Σ xₖ aₖ + Σ xₖ bₖ` when every entry is a real number. -/
theorem sum_mul_add {n : ℕ} (x a b : Fin n → EReal) (hx : ∀ k, IsReal (x k)) (ha : ∀ k, IsReal (a k))
    (hb : ∀ k, IsReal (b k)) :
    ∑ k, x k * (a k + b k) = ∑ k, x k * a k + ∑ k, x k * b k := by
  choose x' hx' using hx
  choose a' ha' using ha
  choose b' hb' using hb
  obtain rfl : x = fun k => (x' k : EReal) := funext hx'
  obtain rfl : a = fun k => (a' k : EReal) := funext ha'
  obtain rfl : b = fun k => (b' k : EReal) := funext hb'
  simp only [← EReal.coe_add, ← EReal.coe_mul, ← coe_sum]
  congr 1
  rw [← Finset.sum_add_distrib]
  exact Finset.sum_congr rfl fun k _ => by ring

/-- One relation: the bias added last or in the middle. -/
theorem one_relation (A C b : EReal) : A + C + b = A + b + C := add_right_comm A C b

/-- Two relations: the kernel's `(A + B) + (C₁ + C₂) + (b₁ + b₂)` is the reference's
    `(A + b₁ + C₁) + (B + b₂ + C₂)`. -/
theorem two_relations (A B C₁ C₂ b₁ b₂ : EReal) :
    A + B + (C₁ + C₂) + (b₁ + b₂) = A + b₁ + C₁ + (B + b₂ + C₂) := by
  ac_rfl

end Cert.Spec
-- ==== Proof.Layer.lean ====
import Idealize.ShloMosaic.PureOps.Ideal
import Idealize.ShloMosaic.Lib.ValueIdx
import proofs.«425960_j50689204027567_2_alg».proof.Proof.LibReal
import proofs.«425960_j50689204027567_2_alg».proof.Proof.Spec

/-!
  The three results as functions of whole arrays, entry by entry, in the two orders in which the two
  programs add their terms.

  A node type's new feature row is `relu (mean · Wl + x · Wr + b)`, where `mean` is the summed neighbour
  rows divided by `max (count, 1)`.  `nbr` is the entry of `mean · Wl`, `root` the entry of `x · Wr`.  The
  `K` forms add in the kernel's order and read the bias (and, for the scalar head, the weight row, the
  offset and the slope) from arrays with a leading unit axis; the `R` forms add in the reference's order
  and read them from the argument arrays as given.
-/

open scoped BigOperators

noncomputable section

namespace Cert.Layer

open Idealize.ShloMosaic Idealize.ShloMosaic.ValueIdx

/-- A rank-2 array of extended reals with literal extents. -/
abbrev A2 (a b : ℕ) := (⟨2, ![a, b]⟩ : Shape).Idx → EReal
/-- A rank-1 array of extended reals. -/
abbrev A1 (a : ℕ) := (⟨1, ![a]⟩ : Shape).Idx → EReal

/-- The float constants `1.0` and `0.0`, kept as their words (the same word on both sides is never evaluated). -/
abbrev one : EReal := Ideal.ofBits .f32 0x3F800000#32
abbrev zero : EReal := Ideal.ofBits .f32 0x00000000#32

/-- Entry `(r, q)` of `(agg / max (cnt, 1)) · Wl`. -/
def nbr (n : ℕ) (agg : A2 n 128) (cnt : A2 n 1) (wl : A2 128 256) (r : Fin n) (q : Fin 256) : EReal :=
  ∑ k : Fin 128, Ideal.div (agg (ix2 r k)) (max (cnt (ix2 r (0 : Fin 1))) one) * wl (ix2 k q)

/-- Entry `(r, q)` of `x · Wr`. -/
def root (n : ℕ) (x : A2 n 128) (wr : A2 128 256) (r : Fin n) (q : Fin 256) : EReal :=
  ∑ k : Fin 128, x (ix2 r k) * wr (ix2 k q)

def relu (y : EReal) : EReal := max y zero

/-- The row index and the column index of an entry, as numbers below the literal extents. -/
abbrev row {a b : ℕ} (i : (⟨2, ![a, b]⟩ : Shape).Idx) : Fin a := ⟨(i 0).val, (i 0).isLt⟩
abbrev col {a b : ℕ} (i : (⟨2, ![a, b]⟩ : Shape).Idx) : Fin b := ⟨(i 1).val, (i 1).isLt⟩

/-! ## One relation -/

/-- Kernel order: `(mean·Wl + x·Wr) + b`, the bias a `[1, 256]` row. -/
def sageKAt (n : ℕ) (agg : A2 n 128) (cnt : A2 n 1) (x : A2 n 128) (wl wr : A2 128 256) (b : A2 1 256) (r : Fin n) (q : Fin 256) : EReal :=
  relu (nbr n agg cnt wl r q + root n x wr r q + b (ix2 (0 : Fin 1) q))

/-- Reference order: `(mean·Wl + b) + x·Wr`, the bias a `[256]` vector. -/
def sageRAt (n : ℕ) (agg : A2 n 128) (cnt : A2 n 1) (x : A2 n 128) (wl wr : A2 128 256) (b : A1 256) (r : Fin n) (q : Fin 256) : EReal :=
  relu (nbr n agg cnt wl r q + b (ix1 q) + root n x wr r q)

def sageK (n : ℕ) (agg : A2 n 128) (cnt : A2 n 1) (x : A2 n 128) (wl wr : A2 128 256) (b : A2 1 256) : A2 n 256 :=
  fun i => sageKAt n agg cnt x wl wr b (row i) (col i)

def sageR (n : ℕ) (agg : A2 n 128) (cnt : A2 n 1) (x : A2 n 128) (wl wr : A2 128 256) (b : A1 256) : A2 n 256 :=
  fun i => sageRAt n agg cnt x wl wr b (row i) (col i)

/-! ## Two relations into one node type -/

/-- Kernel order: `((mean₁·Wl₁ + mean₂·Wl₂) + x·Wrs) + bs`, with `Wrs`, `bs` the sums the host made. -/
def psK (n : ℕ) (agg1 : A2 n 128) (cnt1 : A2 n 1) (agg2 : A2 n 128) (cnt2 : A2 n 1) (x : A2 n 128)
    (wl1 wl2 wrs : A2 128 256) (bs : A2 1 256) : A2 n 256 :=
  fun i => relu (nbr n agg1 cnt1 wl1 (row i) (col i) + nbr n agg2 cnt2 wl2 (row i) (col i) + root n x wrs (row i) (col i)
    + bs (ix2 (0 : Fin 1) (col i)))

/-- Reference order: `((mean₁·Wl₁ + b₁) + x·Wr₁) + ((mean₂·Wl₂ + b₂) + x·Wr₂)`. -/
def psR (n : ℕ) (agg1 : A2 n 128) (cnt1 : A2 n 1) (agg2 : A2 n 128) (cnt2 : A2 n 1) (x : A2 n 128)
    (wl1 wr1 : A2 128 256) (b1 : A1 256) (wl2 wr2 : A2 128 256) (b2 : A1 256) : A2 n 256 :=
  fun i => relu ((nbr n agg1 cnt1 wl1 (row i) (col i) + b1 (ix1 (col i)) + root n x wr1 (row i) (col i))
    + (nbr n agg2 cnt2 wl2 (row i) (col i) + b2 (ix1 (col i)) + root n x wr2 (row i) (col i)))

/-! ## The scalar head: a linear map to one column, then a leaky slope on the negative side -/

/-- `g ≥ 0 ? g : w · g`, as both programs spell it. -/
def prelu (g w : EReal) : EReal := Scalar.select (FloatOps.cmpf (F := Ideal) (φ := .f32) .oge g zero) g (w * g)

/-- Kernel: the hidden row times the weight ROW, summed along the row, plus the offset. -/
def gwK (n : ℕ) (agg : A2 n 128) (cnt : A2 n 1) (x : A2 n 128) (wl wr : A2 128 256) (b : A2 1 256)
    (wlin : A2 1 256) (blin : A2 1 1) (pw : A2 1 1) : A2 n 1 :=
  fun i => prelu ((∑ j : Fin 256, sageKAt n agg cnt x wl wr b (row i) j * wlin (ix2 (0 : Fin 1) j)) + blin (ix2 (0 : Fin 1) (0 : Fin 1)))
    (pw (ix2 (0 : Fin 1) (0 : Fin 1)))

/-- Reference: the hidden matrix times the weight COLUMN, plus the offset. -/
def gwR (n : ℕ) (agg : A2 n 128) (cnt : A2 n 1) (x : A2 n 128) (wl wr : A2 128 256) (b : A1 256)
    (wlin : A2 256 1) (blin : A1 1) (pw : A1 1) : A2 n 1 :=
  fun i => prelu ((∑ j : Fin 256, sageRAt n agg cnt x wl wr b (row i) j * wlin (ix2 j (0 : Fin 1))) + blin (ix1 (0 : Fin 1)))
    (pw (ix1 (0 : Fin 1)))

end Cert.Layer

end
-- ==== Proof.KSw.lean ====
import proofs.«425960_j50689204027567_2_alg».proof.Proof.Gen.KernelIdeal.Frame
import proofs.«425960_j50689204027567_2_alg».proof.Proof.KMat
import proofs.«425960_j50689204027567_2_alg».proof.Proof.LibLayout
import proofs.«425960_j50689204027567_2_alg».proof.Proof.Layer
import Idealize.ShloMosaic.Lib.Pipeline.Value
import Idealize.ShloMosaic.Lib.ValueIdx
import Idealize.ShloMosaic.Lib.ValueLayout

/-!
  Region 0: the node type with one relation and 100000 rows.

  The grid has ten points; point `t` stages rows `10000 t … 10000 t + 9999` of the summed neighbour rows, of
  the neighbour counts and of the root features, and the two weight matrices and the bias row whole, and
  writes back the same rows of the output.  The body's one store is
  `relu ((agg / max (cnt, 1)) · Wl + x · Wr + b)` of the staged blocks, so entry `(10000 t + p, q)` of the
  output array is `Layer.sageKAt` of the whole arrays at that row and column; the ten row blocks tile the
  array, hence the array ends holding `Layer.sageK` of the arrays the region was entered with.
-/

set_option maxRecDepth 16384

noncomputable section

namespace Cert.KernelIdeal.KSw

open Cert.KernelIdeal Cert.KernelIdeal.Gen Cert.KernelIdeal.KMat Cert.LibLayout
open Idealize.ShloMosaic Idealize.ShloMosaic.TcCoe Idealize.SL.Sem Idealize.ShloMosaic.ValueIdx
open Idealize.ShloMosaic.Pipeline (Dat)
open scoped BigOperators

/-- Two arrays of rank 2 agree when they agree at every `(p, q)`. -/
theorem ext2 {a b : ℕ} {f g : (⟨2, ![a, b]⟩ : Shape).Idx → EReal} (h : ∀ (p : Fin a) (q : Fin b), f (ix2 p q) = g (ix2 p q)) :
    f = g :=
  funext fun j => by rw [eq_ix2 j]; exact h _ _

theorem hz : (![0, 0] : Fin 2 → Nat) = fun _ => 0 := funext fun a => by fin_cases a <;> rfl

/-! ## The body's store at an entry of the block -/

/-- Entry `(p, q)` of the block the body stores, from the staged blocks: the two products as sums over the 128
    contracted coordinates, the count's column broadcast along its row, the bias row broadcast down. -/
theorem pay_at (v0 : FVec Ideal S10000x128 .f32) (v2 : FVec Ideal S10000x1 .f32) (v8 : FVec Ideal S128x256 .f32)
    (v10 : FVec Ideal S10000x128 .f32) (v11 : FVec Ideal S128x256 .f32) (v14 : FVec Ideal S1x256 .f32) (p : Fin 10000) (q : Fin 256) :
    k0_pay1 (F := Ideal) v0 v2 v8 v10 v11 v14 (ix2 p q)
      = max ((∑ k : Fin 128, Ideal.div (v0 (ix2 p k)) (max (v2 (ix2 p (0 : Fin 1))) Cert.Layer.one) * v8 (ix2 k q))
              + (∑ k : Fin 128, v10 (ix2 p k) * v11 (ix2 k q)) + v14 (ix2 (0 : Fin 1) q)) Cert.Layer.zero := by
  unfold k0_pay1
  simp only [shapeCast_self]
  refine congrArg₂ max (congrArg₂ (· + ·) (congrArg₂ (· + ·) ?_ ?_) ?_) rfl
  · refine (matmulA_apply _ _ _ p q).trans (Finset.sum_congr rfl fun k _ => congrArg (· * _) ?_)
    refine congrArg (Ideal.div (v0 (ix2 p k))) ?_
    exact broadcastTo_a1_ab_apply _ _ p k
  · exact matmulA_apply _ _ _ p q
  · exact broadcastTo_1b_ab_apply _ _ p q

/-! ## The printed index maps over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `10000 t + p` of the array. -/
def rowOf (t : Fin cfg0.N) (p : Fin 10000) : Fin 100000 :=
  ⟨t.val * 10000 + p.val, by have h : t.val < 10 := lt_of_lt_of_eq t.isLt N_0; have := p.isLt; omega⟩

variable (V : (c : Dev nD) → (b : Ref sig .tc) → Buf (Elt Ideal) ((c : Thread nD τ).loc b))

/-! ## The staged blocks read off the arrays -/

theorem rd_agg (c : Dev nD) (t : Fin cfg0.N) (p : Fin 10000) (k : Fin 128) :
    iblk0 V c 0 t (ix2 p k) = V c (Pipeline.arrRef spec0 0) (ix2 (rowOf t p) k) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

theorem rd_cnt (c : Dev nD) (t : Fin cfg0.N) (p : Fin 10000) :
    iblk0 V c 1 t (ix2 p (0 : Fin 1)) = V c (Pipeline.arrRef spec0 1) (ix2 (rowOf t p) (0 : Fin 1)) := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 1 + 1 * 0 = 0; rw [e1]

theorem rd_x (c : Dev nD) (t : Fin cfg0.N) (p : Fin 10000) (k : Fin 128) :
    iblk0 V c 2 t (ix2 p k) = V c (Pipeline.arrRef spec0 2) (ix2 (rowOf t p) k) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 10000 + 1 * p.val = t.val * 10000 + p.val; rw [e0]; omega
  | ⟨1, _⟩ => show win0_2.index t (1 : Fin 2) * 128 + 1 * k.val = k.val; rw [e1]; omega

theorem rd_wl (c : Dev nD) (t : Fin cfg0.N) (k : Fin 128) (q : Fin 256) :
    iblk0 V c 3 t (ix2 k q) = V c (Pipeline.arrRef spec0 3) (ix2 k q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

theorem rd_wr (c : Dev nD) (t : Fin cfg0.N) (k : Fin 128) (q : Fin 256) :
    iblk0 V c 4 t (ix2 k q) = V c (Pipeline.arrRef spec0 4) (ix2 k q) := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

theorem rd_b (c : Dev nD) (t : Fin cfg0.N) (q : Fin 256) :
    iblk0 V c 5 t (ix2 (0 : Fin 1) q) = V c (Pipeline.arrRef spec0 5) (ix2 (0 : Fin 1) q) := by
  obtain ⟨-, -, -, -, -, -, -, -, -, -, e0, e1, -⟩ := idx_facts t
  unfold iblk0
  rw [View.read_apply]
  refine congrArg (V c (Pipeline.arrRef spec0 5)) (funext fun a => Fin.ext ?_)
  match a with
  | ⟨0, _⟩ => show win0_5.index t (0 : Fin 2) * 1 + 1 * 0 = 0; rw [e0]
  | ⟨1, _⟩ => show win0_5.index t (1 : Fin 2) * 256 + 1 * q.val = q.val; rw [e1]; omega

/-- Where entry `(p, q)` of point `t`'s output block lies in the output array. -/
theorem out_idx (t : Fin cfg0.N) (p : Fin 10000) (q : Fin 256) :
    ((cfg0.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; rw [e0]; omega
  | ⟨1, _⟩ => show win0_6.index t (1 : Fin 2) * 256 + 1 * q.val = q.val; rw [e1]; omega

/-! ## What a point writes back, the cover, the array -/

/-- WHAT POINT `t` WRITES BACK is block `t` of the layer function of the arrays as the region finds them. -/
theorem flushed_eq (c : Dev nD) (t : Fin cfg0.N) :
    (dat0 V c).flushed 6 t = ((cfg0.win 6).blk t).view.read (Elt Ideal)
      (Cert.Layer.sageK 100000 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz, View.ld_unit_zero (S := S128x256) hz,
    View.ld_unit_zero (S := S1x256) hz]
  refine ext2 (a := 10000) (b := 256) fun p q => ?_
  refine (pay_at _ _ _ _ _ _ p q).trans ?_
  rw [View.read_apply, out_idx t p q]
  show _ = Cert.Layer.sageKAt 100000 _ _ _ _ _ _ (rowOf t p) q
  unfold Cert.Layer.sageKAt Cert.Layer.nbr Cert.Layer.root Cert.Layer.relu
  simp only [rd_agg V c t, rd_cnt V c t, rd_x V c t, rd_wl V c t, rd_wr V c t, rd_b V c t]

/-- An index of the array is in point `t`'s block iff each coordinate is in the block's range on its axis. -/
theorem mem_blk (t : Fin cfg0.N) (i : S100000x256.Idx) :
    i ∈ ((cfg0.win 6).blk t).view.set ↔ ∀ a : Fin 2, win0_6.index t a * S10000x256.size a ≤ (i a).val
      ∧ (i a).val < win0_6.index t a * S10000x256.size a + S10000x256.size a := by
  show i ∈ ((View.whole main_v57).slice (win0_6.rect t)).set ↔ _
  rw [View.set_slice_whole, Rect.mem_set_unit]
  exact Iff.rfl

/-- Row `r` of the output is written by point `r / 10000`: the ten row blocks tile the array. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : grid0.N = 10 := N_0
  refine ⟨⟨(i 0).val / 10000, by show _ < grid0.N; omega⟩, flush0_6 _, ?_⟩
  rw [mem_blk]
  obtain ⟨-, -, -, -, -, -, -, -, -, -, -, -, e0, e1⟩ := idx_facts ⟨(i 0).val / 10000, by show _ < grid0.N; omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 256 ≤ (i 1).val ∧ (i 1).val < win0_6.index _ (1 : Fin 2) * 256 + 256
    rw [e1]; omega

/-- THE OUTPUT ARRAY after the region: the layer function of the arrays the region was entered with. -/
theorem final (c : Dev nD) :
    (dat0 V c).arrAt 6 cfg0.N
      = Cert.Layer.sageK 100000 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed_eq V c t) cover

end Cert.KernelIdeal.KSw

end
-- ==== Proof.KPs.lean ====
import proofs.«425960_j50689204027567_2_alg».proof.Proof.Gen.KernelIdeal.Frame
import proofs.«425960_j50689204027567_2_alg».proof.Proof.KMat
import proofs.«425960_j50689204027567_2_alg».proof.Proof.LibLayout
import proofs.«425960_j50689204027567_2_alg».proof.Proof.Layer
import Idealize.ShloMosaic.Lib.Pipeline.Value
import Idealize.ShloMosaic.Lib.ValueIdx
import Idealize.ShloMosaic.Lib.ValueLayout

/-!
  Region 1: the node type that receives two relations (100000 rows).

  The grid has ten points; point `t` stages rows `10000 t … 10000 t + 9999` of the two relations' summed
  neighbour rows and neighbour counts and of the root features, and the two neighbour weight matrices, the
  summed root weight matrix and the summed bias row whole, and writes back the same rows of the output.  The
  body's one store is `relu ((agg₁ / max (cnt₁, 1)) · Wl₁ + (agg₂ / max (cnt₂, 1)) · Wl₂ + x · Wrs + bs)` of the
  staged blocks; the ten row blocks tile the array, so the array ends holding `Layer.psK` of the arrays the
  region was entered with.
-/

set_option maxRecDepth 16384

noncomputable section

namespace Cert.KernelIdeal.KPs

open Cert.KernelIdeal Cert.KernelIdeal.Gen Cert.KernelIdeal.KMat Cert.LibLayout
open Idealize.ShloMosaic Idealize.ShloMosaic.TcCoe Idealize.SL.Sem Idealize.ShloMosaic.ValueIdx
open Idealize.ShloMosaic.Pipeline (Dat)
open scoped BigOperators

/-- Two arrays of rank 2 agree when they agree at every `(p, q)`. -/
theorem ext2 {a b : ℕ} {f g : (⟨2, ![a, b]⟩ : Shape).Idx → EReal} (h : ∀ (p : Fin a) (q : Fin b), f (ix2 p q) = g (ix2 p q)) :
    f = g :=
  funext fun j => by rw [eq_ix2 j]; exact h _ _

theorem hz : (![0, 0] : Fin 2 → Nat) = fun _ => 0 := funext fun a => by fin_cases a <;> rfl

/-! ## The body's store at an entry of the block -/

/-- Entry `(p, q)` of the block the body stores, from the staged blocks: three products as sums over the 128
    contracted coordinates, each count's column broadcast along its row, the bias row broadcast down. -/
theorem pay_at (v0 : FVec Ideal S10000x128 .f32) (v2 : FVec Ideal S10000x1 .f32) (v8 : FVec Ideal S10000x128 .f32)
    (v10 : FVec Ideal S10000x1 .f32) (v16 v18 : FVec Ideal S128x256 .f32) (v21 : FVec Ideal S10000x128 .f32)
    (v22 : FVec Ideal S128x256 .f32) (v26 : FVec Ideal S1x256 .f32) (p : Fin 10000) (q : Fin 256) :
    k1_pay1 (F := Ideal) v0 v2 v8 v10 v16 v18 v21 v22 v26 (ix2 p q)
      = max ((∑ k : Fin 128, Ideal.div (v0 (ix2 p k)) (max (v2 (ix2 p (0 : Fin 1))) Cert.Layer.one) * v16 (ix2 k q))
              + (∑ k : Fin 128, Ideal.div (v8 (ix2 p k)) (max (v10 (ix2 p (0 : Fin 1))) Cert.Layer.one) * v18 (ix2 k q))
              + (∑ k : Fin 128, v21 (ix2 p k) * v22 (ix2 k q)) + v26 (ix2 (0 : Fin 1) q)) Cert.Layer.zero := by
  unfold k1_pay1
  simp only [shapeCast_self]
  refine congrArg₂ max (congrArg₂ (· + ·) (congrArg₂ (· + ·) (congrArg₂ (· + ·) ?_ ?_) ?_) ?_) rfl
  · refine (matmulA_apply _ _ _ p q).trans (Finset.sum_congr rfl fun k _ => congrArg (· * _) ?_)
    refine congrArg (Ideal.div (v0 (ix2 p k))) ?_
    exact broadcastTo_a1_ab_apply _ _ p k
  · refine (matmulA_apply _ _ _ p q).trans (Finset.sum_congr rfl fun k _ => congrArg (· * _) ?_)
    refine congrArg (Ideal.div (v8 (ix2 p k))) ?_
    exact broadcastTo_a1_ab_apply _ _ p k
  · exact matmulA_apply _ _ _ p q
  · exact broadcastTo_1b_ab_apply _ _ p q

/-! ## The printed index maps over the grid -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `p` of point `t`'s block is row `10000 t + p` of the array. -/
def rowOf (t : Fin cfg1.N) (p : Fin 10000) : Fin 100000 :=
  ⟨t.val * 10000 + p.val, by have h : t.val < 10 := lt_of_lt_of_eq t.isLt N_1; have := p.isLt; omega⟩

variable (V : (c : Dev nD) → (b : Ref sig .tc) → Buf (Elt Ideal) ((c : Thread nD τ).loc b))

/-! ## The staged blocks read off the arrays -/

theorem rd_agg1 (c : Dev nD) (t : Fin cfg1.N) (p : Fin 10000) (k : Fin 128) :
    iblk1 V c 0 t (ix2 p k) = V c (Pipeline.arrRef spec1 0) (ix2 (rowOf t p) k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

theorem rd_cnt1 (c : Dev nD) (t : Fin cfg1.N) (p : Fin 10000) :
    iblk1 V c 1 t (ix2 p (0 : Fin 1)) = V c (Pipeline.arrRef spec1 1) (ix2 (rowOf t p) (0 : Fin 1)) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 1 + 1 * 0 = 0; rw [e1]

theorem rd_agg2 (c : Dev nD) (t : Fin cfg1.N) (p : Fin 10000) (k : Fin 128) :
    iblk1 V c 2 t (ix2 p k) = V c (Pipeline.arrRef spec1 2) (ix2 (rowOf t p) k) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 10000 + 1 * p.val = t.val * 10000 + p.val; rw [e0]; omega
  | ⟨1, _⟩ => show win1_2.index t (1 : Fin 2) * 128 + 1 * k.val = k.val; rw [e1]; omega

theorem rd_cnt2 (c : Dev nD) (t : Fin cfg1.N) (p : Fin 10000) :
    iblk1 V c 3 t (ix2 p (0 : Fin 1)) = V c (Pipeline.arrRef spec1 3) (ix2 (rowOf t p) (0 : Fin 1)) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 10000 + 1 * p.val = t.val * 10000 + p.val; rw [e0]; omega
  | ⟨1, _⟩ => show win1_3.index t (1 : Fin 2) * 1 + 1 * 0 = 0; rw [e1]

theorem rd_x (c : Dev nD) (t : Fin cfg1.N) (p : Fin 10000) (k : Fin 128) :
    iblk1 V c 4 t (ix2 p k) = V c (Pipeline.arrRef spec1 4) (ix2 (rowOf t p) k) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 10000 + 1 * p.val = t.val * 10000 + p.val; rw [e0]; omega
  | ⟨1, _⟩ => show win1_4.index t (1 : Fin 2) * 128 + 1 * k.val = k.val; rw [e1]; omega

theorem rd_wl1 (c : Dev nD) (t : Fin cfg1.N) (k : Fin 128) (q : Fin 256) :
    iblk1 V c 5 t (ix2 k q) = V c (Pipeline.arrRef spec1 5) (ix2 k q) := by
  obtain ⟨-, -, -, -, -, -, -, -, -, -, e0, e1, -⟩ := idx_facts t
  unfold iblk1
  rw [View.read_apply]
  refine congrArg (V c (Pipeline.arrRef spec1 5)) (funext fun a => Fin.ext ?_)
  match a with
  | ⟨0, _⟩ => show win1_5.index t (0 : Fin 2) * 128 + 1 * k.val = k.val; rw [e0]; omega
  | ⟨1, _⟩ => show win1_5.index t (1 : Fin 2) * 256 + 1 * q.val = q.val; rw [e1]; omega

theorem rd_wl2 (c : Dev nD) (t : Fin cfg1.N) (k : Fin 128) (q : Fin 256) :
    iblk1 V c 6 t (ix2 k q) = V c (Pipeline.arrRef spec1 6) (ix2 k q) := by
  obtain ⟨-, -, -, -, -, -, -, -, -, -, -, -, e0, e1, -⟩ := idx_facts t
  unfold iblk1
  rw [View.read_apply]
  refine congrArg (V c (Pipeline.arrRef spec1 6)) (funext fun a => Fin.ext ?_)
  match a with
  | ⟨0, _⟩ => show win1_6.index t (0 : Fin 2) * 128 + 1 * k.val = k.val; rw [e0]; omega
  | ⟨1, _⟩ => show win1_6.index t (1 : Fin 2) * 256 + 1 * q.val = q.val; rw [e1]; omega

theorem rd_wrs (c : Dev nD) (t : Fin cfg1.N) (k : Fin 128) (q : Fin 256) :
    iblk1 V c 7 t (ix2 k q) = V c (Pipeline.arrRef spec1 7) (ix2 k q) := by
  obtain ⟨-, -, -, -, -, -, -, -, -, -, -, -, -, -, e0, e1, -⟩ := idx_facts t
  unfold iblk1
  rw [View.read_apply]
  refine congrArg (V c (Pipeline.arrRef spec1 7)) (funext fun a => Fin.ext ?_)
  match a with
  | ⟨0, _⟩ => show win1_7.index t (0 : Fin 2) * 128 + 1 * k.val = k.val; rw [e0]; omega
  | ⟨1, _⟩ => show win1_7.index t (1 : Fin 2) * 256 + 1 * q.val = q.val; rw [e1]; omega

theorem rd_bs (c : Dev nD) (t : Fin cfg1.N) (q : Fin 256) :
    iblk1 V c 8 t (ix2 (0 : Fin 1) q) = V c (Pipeline.arrRef spec1 8) (ix2 (0 : Fin 1) q) := by
  obtain ⟨-, -, -, -, -, -, -, -, -, -, -, -, -, -, -, -, e0, e1, -⟩ := idx_facts t
  unfold iblk1
  rw [View.read_apply]
  refine congrArg (V c (Pipeline.arrRef spec1 8)) (funext fun a => Fin.ext ?_)
  match a with
  | ⟨0, _⟩ => show win1_8.index t (0 : Fin 2) * 1 + 1 * 0 = 0; rw [e0]
  | ⟨1, _⟩ => show win1_8.index t (1 : Fin 2) * 256 + 1 * q.val = q.val; rw [e1]; omega

/-- Where entry `(p, q)` of point `t`'s output block lies in the output array. -/
theorem out_idx (t : Fin cfg1.N) (p : Fin 10000) (q : Fin 256) :
    ((cfg1.win 9).blk t).view.emb (ix2 p q) = ix2 (rowOf t p) q := by
  obtain ⟨-, -, -, -, -, -, -, -, -, -, -, -, -, -, -, -, -, -, e0, e1⟩ := idx_facts t
  refine funext fun a => Fin.ext ?_
  match a with
  | ⟨0, _⟩ => show win1_9.index t (0 : Fin 2) * 10000 + 1 * p.val = t.val * 10000 + p.val; rw [e0]; omega
  | ⟨1, _⟩ => show win1_9.index t (1 : Fin 2) * 256 + 1 * q.val = q.val; rw [e1]; omega

/-! ## What a point writes back, the cover, the array -/

/-- The layer function at row `r` and column `q`. -/
theorem psK_at (agg1 : Cert.Layer.A2 100000 128) (cnt1 : Cert.Layer.A2 100000 1) (agg2 : Cert.Layer.A2 100000 128)
    (cnt2 : Cert.Layer.A2 100000 1) (x : Cert.Layer.A2 100000 128) (wl1 wl2 wrs : Cert.Layer.A2 128 256) (bs : Cert.Layer.A2 1 256)
    (r : Fin 100000) (q : Fin 256) :
    Cert.Layer.psK 100000 agg1 cnt1 agg2 cnt2 x wl1 wl2 wrs bs (ix2 r q)
      = Cert.Layer.relu (Cert.Layer.nbr 100000 agg1 cnt1 wl1 r q + Cert.Layer.nbr 100000 agg2 cnt2 wl2 r q
          + Cert.Layer.root 100000 x wrs r q + bs (ix2 (0 : Fin 1) q)) := rfl

set_option maxHeartbeats 4000000 in
/-- WHAT POINT `t` WRITES BACK is block `t` of the layer function of the arrays as the region finds them. -/
theorem flushed_eq (c : Dev nD) (t : Fin cfg1.N) :
    (dat1 V c).flushed 9 t = ((cfg1.win 9).blk t).view.read (Elt Ideal)
      (Cert.Layer.psK 100000 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))) := by
  show (cfg1.win 9).cut (grid1.coords t) ((dat1 V c).after 9 t) = _
  rw [after1_9]
  unfold out1_9
  rw [View.canon_unit_zero hz]
  simp only [View.ld_unit_zero (S := S10000x128) hz, View.ld_unit_zero (S := S10000x1) hz, View.ld_unit_zero (S := S128x256) hz,
    View.ld_unit_zero (S := S1x256) hz]
  refine ext2 (a := 10000) (b := 256) fun p q => ?_
  refine (pay_at _ _ _ _ _ _ _ _ _ p q).trans ?_
  rw [View.read_apply, out_idx t p q]
  refine Eq.trans ?_ (psK_at (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6))
    (V c (Pipeline.arrRef spec1 7)) (V c (Pipeline.arrRef spec1 8)) (rowOf t p) q).symm
  unfold Cert.Layer.nbr Cert.Layer.root Cert.Layer.relu
  simp only [rd_agg1 V c t, rd_cnt1 V c t, rd_agg2 V c t, rd_cnt2 V c t, rd_x V c t, rd_wl1 V c t, rd_wl2 V c t, rd_wrs V c t,
    rd_bs V c t]

/-- An index of the array is in point `t`'s block iff each coordinate is in the block's range on its axis. -/
theorem mem_blk (t : Fin cfg1.N) (i : S100000x256.Idx) :
    i ∈ ((cfg1.win 9).blk t).view.set ↔ ∀ a : Fin 2, win1_9.index t a * S10000x256.size a ≤ (i a).val
      ∧ (i a).val < win1_9.index t a * S10000x256.size a + S10000x256.size a := by
  show i ∈ ((View.whole main_v61).slice (win1_9.rect t)).set ↔ _
  rw [View.set_slice_whole, Rect.mem_set_unit]
  exact Iff.rfl

/-- Row `r` of the output is written by point `r / 10000`: the ten row blocks tile the array. -/
theorem cover (i : S100000x256.Idx) :
    ∃ t : Fin cfg1.N, (cfg1.win 9).flush t = true ∧ i ∈ ((cfg1.win 9).blk t).view.set := by
  have hi0 : (i 0).val < 100000 := (i 0).isLt
  have hi1 : (i 1).val < 256 := (i 1).isLt
  have hN : grid1.N = 10 := N_1
  refine ⟨⟨(i 0).val / 10000, by show _ < grid1.N; omega⟩, flush1_9 _, ?_⟩
  rw [mem_blk]
  obtain ⟨-, -, -, -, -, -, -, -, -, -, -, -, -, -, -, -, -, -, e0, e1⟩ := idx_facts ⟨(i 0).val / 10000, by show _ < grid1.N; omega⟩
  intro a
  match a with
  | ⟨0, _⟩ =>
    show win1_9.index _ (0 : Fin 2) * 10000 ≤ (i 0).val ∧ (i 0).val < win1_9.index _ (0 : Fin 2) * 10000 + 10000
    rw [e0]; show (i 0).val / 10000 * 10000 ≤ (i 0).val ∧ (i 0).val < (i 0).val / 10000 * 10000 + 10000; omega
  | ⟨1, _⟩ =>
    show win1_9.index _ (1 : Fin 2) * 256 ≤ (i 1).val ∧ (i 1).val < win1_9.index _ (1 : Fin 2) * 256 + 256
    rw [e1]; omega

/-- THE OUTPUT ARRAY after the region: the layer function of the arrays the region was entered with. -/
theorem final (c : Dev nD) :
    (dat1 V c).arrAt 9 cfg1.N
      = Cert.Layer.psK 100000 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8)) :=
  (dat1 V c).arrAt_eq_of_cover 9 _ (fun t _ => flushed_eq V c t) cover

end Cert.KernelIdeal.KPs

end
-- ==== Proof.KGw.lean ====
import proofs.«425960_j50689204027567_2_alg».proof.Proof.Gen.KernelIdeal.Frame
import proofs.«425960_j50689204027567_2_alg».proof.Proof.KMat
import proofs.«425960_j50689204027567_2_alg».proof.Proof.LibLayout
import proofs.«425960_j50689204027567_2_alg».proof.Proof.Layer
import Idealize.ShloMosaic.Lib.Pipeline.Value
import Idealize.ShloMosaic.Lib.ValueIdx
import Idealize.ShloMosaic.Lib.ValueLayout
import Idealize.ShloMosaic.PureOps.Ideal.Laws

/-!
  Region 2: the node type with one relation, 200000 rows and the scalar head.

  The grid has ten points; point `t` stages rows `20000 t … 20000 t + 19999` of the summed neighbour rows, of
  the neighbour counts and of the root features, and the two weight matrices, the bias row, the head's weight
  row, offset and slope whole, and writes back the same rows of the one-column output.  The body computes the
  hidden row `relu ((agg / max (cnt, 1)) · Wl + x · Wr + b)`, multiplies it by the head's weight row and sums
  along the row, adds the offset, and keeps the result where it is nonnegative and the slope times it elsewhere.
-/

set_option maxRecDepth 16384

noncomputable section

namespace Cert.KernelIdeal.KGw

open Cert.KernelIdeal Cert.KernelIdeal.Gen Cert.KernelIdeal.KMat Cert.LibLayout
open Idealize.ShloMosaic Idealize.ShloMosaic.TcCoe Idealize.SL.Sem Idealize.ShloMosaic.ValueIdx
open Idealize.ShloMosaic.Pipeline (Dat)
open scoped BigOperators

/-- Two arrays of rank 2 agree when they agree at every `(p, q)`. -/
theorem ext2 {a b : ℕ} {f g : (⟨2, ![a, b]⟩ : Shape).Idx → EReal} (h : ∀ (p : Fin a) (q : Fin b), f (ix2 p q) = g (ix2 p q)) :
    f = g :=
  funext fun j => by rw [eq_ix2 j]; exact h _ _

theorem hz : (![0, 0] : Fin 2 → Nat) = fun _ => 0 := funext fun a => by fin_cases a <;> rfl

/-! ## The body's store at an entry of the block -/

/-- The result index `p` of the row sum with column `k` put back is `(p, k)`. -/
theorem lift_row (h : S20000x256.Reduces [1] S20000) (p : Fin 20000) (k : Fin (S20000x256.size 1)) :
    h.lift (ix1 p) k = ix2 p (⟨k.val, k.isLt⟩ : Fin 256) := by
  funext c; apply Fin.ext
  fin_cases c <;> rfl

/-- The sum along a row of a `[20000, 256]` block, read at row `p`: the sum of the row's 256 entries. -/
theorem rowsum_at (src : FVec Ideal S20000x256 .f32) (h : S20000x256.Reduces [1] S20000) (hφ : FKind.Formats .f32)
    (hacc : (0x00000000#32 : BitVec FTy.f32.bits) = FKind.add.neutral .f32 hφ) (p : Fin 20000) :
    multiReduction .add [1] S20000 src 0x00000000#32 h hφ hacc (ix1 p) = ∑ j : Fin 256, src (ix2 p j) :=
  (Ideal.multiReduction_add_single src 0x00000000#32 h hφ hacc (ix1 p)).trans
    (Finset.sum_congr rfl fun k _ => congrArg src (lift_row h p k))

/-- Entry `(p, j)` of the hidden block: the two products as sums over the 128 contracted coordinates, the
    count's column broadcast along its row, the bias row broadcast down, the maximum with zero; times the head's
    weight at `j`, summed over the row's 256 entries, plus the offset. -/
theorem val_at (v0 : FVec Ideal S20000x128 .f32) (v2 : FVec Ideal S20000x1 .f32) (v8 : FVec Ideal S128x256 .f32)
    (v10 : FVec Ideal S20000x128 .f32) (v11 : FVec Ideal S128x256 .f32) (v14 : FVec Ideal S1x256 .f32)
    (v20 : FVec Ideal S1x256 .f32) (v26 : FVec Ideal S1x1 .f32) (p : Fin 20000) :
    k2_pay2 (F := Ideal) v0 v2 v8 v10 v11 v14 v20 v26 (ix2 p (0 : Fin 1))
      = (∑ j : Fin 256,
            max ((∑ k : Fin 128, Ideal.div (v0 (ix2 p k)) (max (v2 (ix2 p (0 : Fin 1))) Cert.Layer.one) * v8 (ix2 k j))
              + (∑ k : Fin 128, v10 (ix2 p k) * v11 (ix2 k j)) + v14 (ix2 (0 : Fin 1) j)) Cert.Layer.zero
              * v20 (ix2 (0 : Fin 1) j))
          + v26 (ix2 (0 : Fin 1) (0 : Fin 1)) := by
  unfold k2_pay2
  simp only [shapeCast_self]
  refine congrArg₂ (· + ·) ?_ ?_
  · refine (shapeCast_a_a1_apply _ _ p (0 : Fin 1)).trans ?_
    refine (rowsum_at _ _ _ _ p).trans (Finset.sum_congr rfl fun j _ => ?_)
    refine congrArg₂ (· * ·) ?_ ?_
    · refine congrArg₂ max (congrArg₂ (· + ·) (congrArg₂ (· + ·) ?_ ?_) ?_) rfl
      · refine (matmulB_apply _ _ _ p j).trans (Finset.sum_congr rfl fun k _ => congrArg (· * _) ?_)
        refine congrArg (Ideal.div (v0 (ix2 p k))) ?_
        exact broadcastTo_a1_ab_apply _ _ p k
      · exact matmulB_apply _ _ _ p j
      · exact broadcastTo_1b_ab_apply _ _ p j
    · exact broadcastTo_1b_ab_apply _ _ p j
  · exact broadcastTo_1b_ab_apply _ _ p (0 : Fin 1)

/-- Entry `(p, 0)` of the block the body stores: the value where it is nonnegative, the slope times it elsewhere. -/
theorem pay_at (v0 : FVec Ideal S20000x128 .f32) (v2 : FVec Ideal S20000x1 .f32) (v8 : FVec Ideal S128x256 .f32)
    (v10 : FVec Ideal S20000x128 .f32) (v11 : FVec Ideal S128x256 .f32) (v14 : FVec Ideal S1x256 .f32)
    (v20 : FVec Ideal S1x256 .f32) (v26 : FVec Ideal S1x1 .f32) (v30 : FVec Ideal S1x1 .f32) (p : Fin 20000) :
    k2_pay1 (F := Ideal) (k2_pay2 (F := Ideal) v0 v2 v8 v10 v11 v14 v20 v26) (k2_pay3 (F := Ideal) v0 v2 v8 v10 v11 v14 v20 v26)
        (k2_pay4 (F := Ideal) v30)
        (ix2 p (0 : Fin 1))
      = Cert.Layer.prelu
          ((∑ j : Fin 256,
              max ((∑ k : Fin 128, Ideal.div (v0 (ix2 p k)) (max (v2 (ix2 p (0 : Fin 1))) Cert.Layer.one) * v8 (ix2 k j))
                + (∑ k : Fin 128, v10 (ix2 p k) * v11 (ix2 k j)) + v14 (ix2 (0 : Fin 1) j)) Cert.Layer.zero
                * v20 (ix2 (0 : Fin 1) j))
            + v26 (ix2 (0 : Fin 1) (0 : Fin 1)))
          (v30 (ix2 (0 : Fin 1) (0 : Fin 1))) := by
  have hs : k2_pay4 (F := Ideal) v30 (ix2 p (0 : Fin 1)) = v30 (ix2 (0 : Fin 1) (0 : Fin 1)) := by
    unfold k2_pay4
    simp only [shapeCast_self]
    exact broadcastTo_1b_ab_apply _ _ p (0 : Fin 1)
  show Scalar.select (FloatOps.cmpf (F := Ideal) (φ := .f32) .oge (k2_pay2 (F := Ideal) v0 v2 v8 v10 v11 v14 v20 v26 (ix2 p (0 : Fin 1))) Cert.Layer.zero)
      (k2_pay2 (F := Ideal) v0 v2 v8 v10 v11 v14 v20 v26 (ix2 p (0 : Fin 1)))
      (k2_pay4 (F := Ideal) v30 (ix2 p (0 : Fin 1)) * k2_pay2 (F := Ideal) v0 v2 v8 v10 v11 v14 v20 v26 (ix2 p (0 : Fin 1))) = _
  rw [hs, val_at v0 v2 v8 v10 v11 v14 v20 v26 p]
  rfl

/-! ## The printed index maps over the grid -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `p` of point `t`'s block is row `20000 t + p` of the array. -/
def rowOf (t : Fin cfg2.N) (p : Fin 20000) : Fin 200000 :=
  ⟨t.val * 20000 + p.val, by have h : t.val < 10 := lt_of_lt_of_eq t.isLt N_2; have := p.isLt; omega⟩

variable (V : (c : Dev nD) → (b : Ref sig .tc) → Buf (Elt Ideal) ((c : Thread nD τ).loc b))

/-! ## The staged blocks read off the arrays -/

theorem rd_agg (c : Dev nD) (t : Fin cfg2.N) (p : Fin 20000) (k : Fin 128) :
    iblk2 V c 0 t (ix2 p k) = V c (Pipeline.arrRef spec2 0) (ix2 (rowOf t p) k) := by
  obtain ⟨e0, e1, -⟩ := idx_facts t
  unfold iblk2
  rw [View.read_apply]
  refine congrArg (V c (Pipeline.arrRef spec2 0)) (funext fun a => Fin.ext ?_)
  match a with
  | ⟨0, _⟩ => show win2_0.index t (0 : Fin 2) * 20000 + 1 * p.val = t.val * 20000 + p.val; rw [e0]; omega
  | ⟨1, _⟩ => show win2_0.index t (1 : Fin 2) * 128 + 1 * k.val = k.val; rw [e1]; omega

theorem rd_cnt (c : Dev nD) (t : Fin cfg2.N) (p : Fin 20000) :
    iblk2 V c 1 t (ix2 p (0 : Fin 1)) = V c (Pipeline.arrRef spec2 1) (ix2 (rowOf t p) (0 : Fin 1)) := by
  obtain ⟨-, -, e0, e1, -⟩ := idx_facts t
  unfold iblk2
  rw [View.read_apply]
  refine congrArg (V c (Pipeline.arrRef spec2 1)) (funext fun a => Fin.ext ?_)
  match a with
  | ⟨0, _⟩ => show win2_1.index t (0 : Fin 2) * 20000 + 1 * p.val = t.val * 20000 + p.val; rw [e0]; omega
  | ⟨1, _⟩ => show win2_1.index t (1 : Fin 2) * 1 + 1 * 0 = 0; rw [e1]

theorem rd_x (c : Dev nD) (t : Fin cfg2.N) (p : Fin 20000) (k : Fin 128) :
    iblk2 V c 2 t (ix2 p k) = V c (Pipeline.arrRef spec2 2) (ix2 (rowOf t p) k) := by
  obtain ⟨-, -, -, -, e0, e1, -⟩ := idx_facts t
  unfold iblk2
  rw [View.read_apply]
  refine congrArg (V c (Pipeline.arrRef spec2 2)) (funext fun a => Fin.ext ?_)
  match a with
  | ⟨0, _⟩ => show win2_2.index t (0 : Fin 2) * 20000 + 1 * p.val = t.val * 20000 + p.val; rw [e0]; omega
  | ⟨1, _⟩ => show win2_2.index t (1 : Fin 2) * 128 + 1 * k.val = k.val; rw [e1]; omega

theorem rd_wl (c : Dev nD) (t : Fin cfg2.N) (k : Fin 128) (q : Fin 256) :
    iblk2 V c 3 t (ix2 k q) = V c (Pipeline.arrRef spec2 3) (ix2 k q) := by
  obtain ⟨-, -, -, -, -, -, e0, e1, -⟩ := idx_facts t
  unfold iblk2
  rw [View.read_apply]
  refine congrArg (V c (Pipeline.arrRef spec2 3)) (funext fun a => Fin.ext ?_)
  match a with
  | ⟨0, _⟩ => show win2_3.index t (0 : Fin 2) * 128 + 1 * k.val = k.val; rw [e0]; omega
  | ⟨1, _⟩ => show win2_3.index t (1 : Fin 2) * 256 + 1 * q.val = q.val; rw [e1]; omega

theorem rd_wr (c : Dev nD) (t : Fin cfg2.N) (k : Fin 128) (q : Fin 256) :
    iblk2 V c 4 t (ix2 k q) = V c (Pipeline.arrRef spec2 4) (ix2 k q) := by
  obtain ⟨-, -, -, -, -, -, -, -, e0, e1, -⟩ := idx_facts t
  unfold iblk2
  rw [View.read_apply]
  refine congrArg (V c (Pipeline.arrRef spec2 4)) (funext fun a => Fin.ext ?_)
  match a with
  | ⟨0, _⟩ => show win2_4.index t (0 : Fin 2) * 128 + 1 * k.val = k.val; rw [e0]; omega
  | ⟨1, _⟩ => show win2_4.index t (1 : Fin 2) * 256 + 1 * q.val = q.val; rw [e1]; omega

theorem rd_b (c : Dev nD) (t : Fin cfg2.N) (q : Fin 256) :
    iblk2 V c 5 t (ix2 (0 : Fin 1) q) = V c (Pipeline.arrRef spec2 5) (ix2 (0 : Fin 1) q) := by
  obtain ⟨-, -, -, -, -, -, -, -, -, -, e0, e1, -⟩ := idx_facts t
  unfold iblk2
  rw [View.read_apply]
  refine congrArg (V c (Pipeline.arrRef spec2 5)) (funext fun a => Fin.ext ?_)
  match a with
  | ⟨0, _⟩ => show win2_5.index t (0 : Fin 2) * 1 + 1 * 0 = 0; rw [e0]
  | ⟨1, _⟩ => show win2_5.index t (1 : Fin 2) * 256 + 1 * q.val = q.val; rw [e1]; omega

theorem rd_wlin (c : Dev nD) (t : Fin cfg2.N) (q : Fin 256) :
    iblk2 V c 6 t (ix2 (0 : Fin 1) q) = V c (Pipeline.arrRef spec2 6) (ix2 (0 : Fin 1) q) := by
  obtain ⟨-, -, -, -, -, -, -, -, -, -, -, -, e0, e1, -⟩ := idx_facts t
  unfold iblk2
  rw [View.read_apply]
  refine congrArg (V c (Pipeline.arrRef spec2 6)) (funext fun a => Fin.ext ?_)
  match a with
  | ⟨0, _⟩ => show win2_6.index t (0 : Fin 2) * 1 + 1 * 0 = 0; rw [e0]
  | ⟨1, _⟩ => show win2_6.index t (1 : Fin 2) * 256 + 1 * q.val = q.val; rw [e1]; omega

theorem rd_blin (c : Dev nD) (t : Fin cfg2.N) :
    iblk2 V c 7 t (ix2 (0 : Fin 1) (0 : Fin 1)) = V c (Pipeline.arrRef spec2 7) (ix2 (0 : Fin 1) (0 : Fin 1)) := by
  obtain ⟨-, -, -, -, -, -, -, -, -, -, -, -, -, -, e0, e1, -⟩ := idx_facts t
  unfold iblk2
  rw [View.read_apply]
  refine congrArg (V c (Pipeline.arrRef spec2 7)) (funext fun a => Fin.ext ?_)
  match a with
  | ⟨0, _⟩ => show win2_7.index t (0 : Fin 2) * 1 + 1 * 0 = 0; rw [e0]
  | ⟨1, _⟩ => show win2_7.index t (1 : Fin 2) * 1 + 1 * 0 = 0; rw [e1]

theorem rd_pw (c : Dev nD) (t : Fin cfg2.N) :
    iblk2 V c 8 t (ix2 (0 : Fin 1) (0 : Fin 1)) = V c (Pipeline.arrRef spec2 8) (ix2 (0 : Fin 1) (0 : Fin 1)) := by
  obtain ⟨-, -, -, -, -, -, -, -, -, -, -, -, -, -, -, -, e0, e1, -⟩ := idx_facts t
  unfold iblk2
  rw [View.read_apply]
  refine congrArg (V c (Pipeline.arrRef spec2 8)) (funext fun a => Fin.ext ?_)
  match a with
  | ⟨0, _⟩ => show win2_8.index t (0 : Fin 2) * 1 + 1 * 0 = 0; rw [e0]
  | ⟨1, _⟩ => show win2_8.index t (1 : Fin 2) * 1 + 1 * 0 = 0; rw [e1]

/-- Where entry `(p, 0)` of point `t`'s output block lies in the output array. -/
theorem out_idx (t : Fin cfg2.N) (p : Fin 20000) :
    ((cfg2.win 9).blk t).view.emb (ix2 p (0 : Fin 1)) = ix2 (rowOf t p) (0 : Fin 1) := by
  obtain ⟨-, -, -, -, -, -, -, -, -, -, -, -, -, -, -, -, -, -, e0, e1⟩ := idx_facts t
  refine funext fun a => Fin.ext ?_
  match a with
  | ⟨0, _⟩ => show win2_9.index t (0 : Fin 2) * 20000 + 1 * p.val = t.val * 20000 + p.val; rw [e0]; omega
  | ⟨1, _⟩ => show win2_9.index t (1 : Fin 2) * 1 + 1 * 0 = 0; rw [e1]

/-! ## What a point writes back, the cover, the array -/

/-- The layer-and-head function at row `r`. -/
theorem gwK_at (agg : Cert.Layer.A2 200000 128) (cnt : Cert.Layer.A2 200000 1) (x : Cert.Layer.A2 200000 128)
    (wl wr : Cert.Layer.A2 128 256) (b : Cert.Layer.A2 1 256) (wlin : Cert.Layer.A2 1 256) (blin pw : Cert.Layer.A2 1 1)
    (r : Fin 200000) :
    Cert.Layer.gwK 200000 agg cnt x wl wr b wlin blin pw (ix2 r (0 : Fin 1))
      = Cert.Layer.prelu ((∑ j : Fin 256, Cert.Layer.sageKAt 200000 agg cnt x wl wr b r j * wlin (ix2 (0 : Fin 1) j))
          + blin (ix2 (0 : Fin 1) (0 : Fin 1))) (pw (ix2 (0 : Fin 1) (0 : Fin 1))) := rfl

set_option maxHeartbeats 4000000 in
/-- WHAT POINT `t` WRITES BACK is block `t` of the layer-and-head function of the arrays as the region finds them. -/
theorem flushed_eq (c : Dev nD) (t : Fin cfg2.N) :
    (dat2 V c).flushed 9 t = ((cfg2.win 9).blk t).view.read (Elt Ideal)
      (Cert.Layer.gwK 200000 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (V c (Pipeline.arrRef spec2 7)) (V c (Pipeline.arrRef spec2 8))) := by
  show (cfg2.win 9).cut (grid2.coords t) ((dat2 V c).after 9 t) = _
  rw [after2_9]
  unfold out2_9
  rw [View.canon_unit_zero hz]
  simp only [View.ld_unit_zero (S := S20000x128) hz, View.ld_unit_zero (S := S20000x1) hz, View.ld_unit_zero (S := S128x256) hz,
    View.ld_unit_zero (S := S1x256) hz, View.ld_unit_zero (S := S1x1) hz]
  refine ext2 (a := 20000) (b := 1) fun p q => ?_
  obtain rfl : q = (0 : Fin 1) := Subsingleton.elim _ _
  refine (pay_at _ _ _ _ _ _ _ _ _ p).trans ?_
  rw [View.read_apply, out_idx t p]
  refine Eq.trans ?_ (gwK_at (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))
    (V c (Pipeline.arrRef spec2 7)) (V c (Pipeline.arrRef spec2 8)) (rowOf t p)).symm
  unfold Cert.Layer.sageKAt Cert.Layer.nbr Cert.Layer.root Cert.Layer.relu
  simp only [rd_agg V c t, rd_cnt V c t, rd_x V c t, rd_wl V c t, rd_wr V c t, rd_b V c t, rd_wlin V c t, rd_blin V c t, rd_pw V c t]

/-- An index of the array is in point `t`'s block iff each coordinate is in the block's range on its axis. -/
theorem mem_blk (t : Fin cfg2.N) (i : S200000x1.Idx) :
    i ∈ ((cfg2.win 9).blk t).view.set ↔ ∀ a : Fin 2, win2_9.index t a * S20000x1.size a ≤ (i a).val
      ∧ (i a).val < win2_9.index t a * S20000x1.size a + S20000x1.size a := by
  show i ∈ ((View.whole main_v66).slice (win2_9.rect t)).set ↔ _
  rw [View.set_slice_whole, Rect.mem_set_unit]
  exact Iff.rfl

/-- Row `r` of the output is written by point `r / 20000`: the ten row blocks tile the array. -/
theorem cover (i : S200000x1.Idx) :
    ∃ t : Fin cfg2.N, (cfg2.win 9).flush t = true ∧ i ∈ ((cfg2.win 9).blk t).view.set := by
  have hi0 : (i 0).val < 200000 := (i 0).isLt
  have hi1 : (i 1).val < 1 := (i 1).isLt
  have hN : grid2.N = 10 := N_2
  refine ⟨⟨(i 0).val / 20000, by show _ < grid2.N; omega⟩, flush2_9 _, ?_⟩
  rw [mem_blk]
  obtain ⟨-, -, -, -, -, -, -, -, -, -, -, -, -, -, -, -, -, -, e0, e1⟩ := idx_facts ⟨(i 0).val / 20000, by show _ < grid2.N; omega⟩
  intro a
  match a with
  | ⟨0, _⟩ =>
    show win2_9.index _ (0 : Fin 2) * 20000 ≤ (i 0).val ∧ (i 0).val < win2_9.index _ (0 : Fin 2) * 20000 + 20000
    rw [e0]; show (i 0).val / 20000 * 20000 ≤ (i 0).val ∧ (i 0).val < (i 0).val / 20000 * 20000 + 20000; omega
  | ⟨1, _⟩ =>
    show win2_9.index _ (1 : Fin 2) * 1 ≤ (i 1).val ∧ (i 1).val < win2_9.index _ (1 : Fin 2) * 1 + 1
    rw [e1]; omega

/-- THE OUTPUT ARRAY after the region: the layer-and-head function of the arrays the region was entered with. -/
theorem final (c : Dev nD) :
    (dat2 V c).arrAt 9 cfg2.N
      = Cert.Layer.gwK 200000 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (V c (Pipeline.arrRef spec2 7)) (V c (Pipeline.arrRef spec2 8)) :=
  (dat2 V c).arrAt_eq_of_cover 9 _ (fun t _ => flushed_eq V c t) cover

end Cert.KernelIdeal.KGw

end
-- ==== Proof.RefValue.lean ====
import proofs.«425960_j50689204027567_2_alg».proof.Proof.Gen.ReferenceIdeal.Read
import proofs.«425960_j50689204027567_2_alg».proof.Proof.Layer
import Idealize.ShloMosaic.Lib.ValueIdx
import Idealize.ShloMosaic.Lib.ValueLayout
import Idealize.ShloMosaic.PureOps.Ideal.Laws

/-!
  The reference program's three results, read index by index, are the layer functions in the
  reference's order of addition (`Layer.sageR`, `Layer.psR`, `Layer.gwR`) of the summed neighbour rows,
  the neighbour counts (both left as the reference's own gather / scatter-add stages) and the arguments.
-/

noncomputable section

namespace Cert.ReferenceIdeal.RefValue

open Cert.ReferenceIdeal Cert.ReferenceIdeal.Read Idealize.ShloMosaic Idealize.ShloMosaic.ValueIdx

/-- The node type with one relation and 100000 rows. -/
theorem sw_eq (x0 x2 : (⟨S100000x128, .f32⟩ : BufTy).Contents (Elt Ideal)) (x7 x8 : (⟨S400000, .i32⟩ : BufTy).Contents (Elt Ideal))
    (x17 x18 : (⟨S128x256, .f32⟩ : BufTy).Contents (Elt Ideal)) (x19 : (⟨S256, .f32⟩ : BufTy).Contents (Elt Ideal)) :
    val_main_v99 (F := Ideal) x0 x2 x7 x8 x17 x18 x19
      = Cert.Layer.sageR 100000 (val_main_v82 (F := Ideal) x0 x7 x8) (val_main_v86 (F := Ideal) x8) x2 x17 x18 x19 := by
  funext i
  -- the composed index maps of the stages are the layer's row and column indices
  have e1 : ∀ k, lidx_main_v91 i k = ix2 (Cert.Layer.row i) k := fun k => eq_ix2 _
  have e2 : ∀ k, ridx_main_v91 i k = ix2 k (Cert.Layer.col i) := fun k => eq_ix2 _
  have e3 : ∀ k : Fin 128, idx_main_v89 (ix2 (Cert.Layer.row i) k) = ix2 (Cert.Layer.row i) (0 : Fin 1) := fun k => eq_ix2 _
  have e4 : idx_main_v92 (idx_main_v93 i) = ix1 (Cert.Layer.col i) := eq_ix1 _
  have e5 : ∀ k, lidx_main_v95 i k = ix2 (Cert.Layer.row i) k := fun k => eq_ix2 _
  have e6 : ∀ k, ridx_main_v95 i k = ix2 k (Cert.Layer.col i) := fun k => eq_ix2 _
  unfold Cert.Layer.sageR Cert.Layer.sageRAt Cert.Layer.nbr Cert.Layer.root Cert.Layer.relu
  rw [val_main_v99_apply, val_main_v96_apply, val_main_v94_apply, val_main_v91_apply, val_main_v93_apply, val_main_v92_apply,
    val_main_v95_apply, val_main_call2_v0_apply, val_main_call2_cst_apply]
  simp only [val_main_v90_apply, val_main_v89_apply, val_main_v88_apply, val_main_v87_apply, val_main_cst_21_apply,
    e1, e2, e3, e4, e5, e6]
  rfl

/-- The node type that receives two relations. -/
theorem ps_eq (x0 : (⟨S100000x128, .f32⟩ : BufTy).Contents (Elt Ideal)) (x1 : (⟨S200000x128, .f32⟩ : BufTy).Contents (Elt Ideal))
    (x2 : (⟨S100000x128, .f32⟩ : BufTy).Contents (Elt Ideal)) (x5 x6 x9 x10 : (⟨S400000, .i32⟩ : BufTy).Contents (Elt Ideal))
    (x14 x15 : (⟨S128x256, .f32⟩ : BufTy).Contents (Elt Ideal)) (x16 : (⟨S256, .f32⟩ : BufTy).Contents (Elt Ideal))
    (x20 x21 : (⟨S128x256, .f32⟩ : BufTy).Contents (Elt Ideal)) (x22 : (⟨S256, .f32⟩ : BufTy).Contents (Elt Ideal)) :
    val_main_v98 (F := Ideal) x0 x1 x2 x5 x6 x9 x10 x14 x15 x16 x20 x21 x22
      = Cert.Layer.psR 100000 (val_main_v33 (F := Ideal) x1 x5 x6) (val_main_v37 (F := Ideal) x6)
          (val_main_v57 (F := Ideal) x2 x9 x10) (val_main_v61 (F := Ideal) x10) x0 x14 x15 x16 x20 x21 x22 := by
  funext i
  -- the composed index maps of the stages are the layer's row and column indices, relation by relation
  have a1 : ∀ k, lidx_main_v42 i k = ix2 (Cert.Layer.row i) k := fun k => eq_ix2 _
  have a2 : ∀ k, ridx_main_v42 i k = ix2 k (Cert.Layer.col i) := fun k => eq_ix2 _
  have a3 : ∀ k : Fin 128, idx_main_v40 (ix2 (Cert.Layer.row i) k) = ix2 (Cert.Layer.row i) (0 : Fin 1) := fun k => eq_ix2 _
  have a4 : idx_main_v43 (idx_main_v44 i) = ix1 (Cert.Layer.col i) := eq_ix1 _
  have a5 : ∀ k, lidx_main_v46 i k = ix2 (Cert.Layer.row i) k := fun k => eq_ix2 _
  have a6 : ∀ k, ridx_main_v46 i k = ix2 k (Cert.Layer.col i) := fun k => eq_ix2 _
  have b1 : ∀ k, lidx_main_v66 i k = ix2 (Cert.Layer.row i) k := fun k => eq_ix2 _
  have b2 : ∀ k, ridx_main_v66 i k = ix2 k (Cert.Layer.col i) := fun k => eq_ix2 _
  have b3 : ∀ k : Fin 128, idx_main_v64 (ix2 (Cert.Layer.row i) k) = ix2 (Cert.Layer.row i) (0 : Fin 1) := fun k => eq_ix2 _
  have b4 : idx_main_v67 (idx_main_v68 i) = ix1 (Cert.Layer.col i) := eq_ix1 _
  have b5 : ∀ k, lidx_main_v70 i k = ix2 (Cert.Layer.row i) k := fun k => eq_ix2 _
  have b6 : ∀ k, ridx_main_v70 i k = ix2 k (Cert.Layer.col i) := fun k => eq_ix2 _
  unfold Cert.Layer.psR Cert.Layer.nbr Cert.Layer.root Cert.Layer.relu
  rw [val_main_v98_apply, val_main_v72_apply, val_main_v47_apply, val_main_v45_apply, val_main_v42_apply, val_main_v44_apply,
    val_main_v43_apply, val_main_v46_apply, val_main_v71_apply, val_main_v69_apply, val_main_v66_apply, val_main_v68_apply,
    val_main_v67_apply, val_main_v70_apply, val_main_call1_v0_apply, val_main_call1_cst_apply]
  simp only [val_main_v41_apply, val_main_v40_apply, val_main_v39_apply, val_main_v38_apply, val_main_cst_9_apply,
    val_main_v65_apply, val_main_v64_apply, val_main_v63_apply, val_main_v62_apply, val_main_cst_15_apply,
    a1, a2, a3, a4, a5, a6, b1, b2, b3, b4, b5, b6]
  rfl

/-- The hidden row of the 200000-row node type, before the scalar head. -/
private theorem hidden_eq (x0 : (⟨S100000x128, .f32⟩ : BufTy).Contents (Elt Ideal)) (x1 : (⟨S200000x128, .f32⟩ : BufTy).Contents (Elt Ideal))
    (x3 x4 : (⟨S400000, .i32⟩ : BufTy).Contents (Elt Ideal)) (x11 x12 : (⟨S128x256, .f32⟩ : BufTy).Contents (Elt Ideal))
    (x13 : (⟨S256, .f32⟩ : BufTy).Contents (Elt Ideal)) (i : S200000x256.Idx) :
    val_main_v97 (F := Ideal) x0 x1 x3 x4 x11 x12 x13 i
      = Cert.Layer.sageRAt 200000 (val_main_v9 (F := Ideal) x0 x3 x4) (val_main_v13 (F := Ideal) x4) x1 x11 x12 x13
          (Cert.Layer.row i) (Cert.Layer.col i) := by
  have e1 : ∀ k, lidx_main_v18 i k = ix2 (Cert.Layer.row i) k := fun k => eq_ix2 _
  have e2 : ∀ k, ridx_main_v18 i k = ix2 k (Cert.Layer.col i) := fun k => eq_ix2 _
  have e3 : ∀ k : Fin 128, idx_main_v16 (ix2 (Cert.Layer.row i) k) = ix2 (Cert.Layer.row i) (0 : Fin 1) := fun k => eq_ix2 _
  have e4 : idx_main_v19 (idx_main_v20 i) = ix1 (Cert.Layer.col i) := eq_ix1 _
  have e5 : ∀ k, lidx_main_v22 i k = ix2 (Cert.Layer.row i) k := fun k => eq_ix2 _
  have e6 : ∀ k, ridx_main_v22 i k = ix2 k (Cert.Layer.col i) := fun k => eq_ix2 _
  unfold Cert.Layer.sageRAt Cert.Layer.nbr Cert.Layer.root Cert.Layer.relu
  rw [val_main_v97_apply, val_main_v23_apply, val_main_v21_apply, val_main_v18_apply, val_main_v20_apply, val_main_v19_apply,
    val_main_v22_apply, val_main_call0_v0_apply, val_main_call0_cst_apply]
  simp only [val_main_v17_apply, val_main_v16_apply, val_main_v15_apply, val_main_v14_apply, val_main_cst_3_apply,
    e1, e2, e3, e4, e5, e6]
  rfl

/-- The node type with one relation, 200000 rows and the scalar head. -/
theorem gw_eq (x0 : (⟨S100000x128, .f32⟩ : BufTy).Contents (Elt Ideal)) (x1 : (⟨S200000x128, .f32⟩ : BufTy).Contents (Elt Ideal))
    (x3 x4 : (⟨S400000, .i32⟩ : BufTy).Contents (Elt Ideal)) (x11 x12 : (⟨S128x256, .f32⟩ : BufTy).Contents (Elt Ideal))
    (x13 : (⟨S256, .f32⟩ : BufTy).Contents (Elt Ideal)) (x23 : (⟨S256x1, .f32⟩ : BufTy).Contents (Elt Ideal))
    (x24 x25 : (⟨S1, .f32⟩ : BufTy).Contents (Elt Ideal)) :
    val_main_v109 (F := Ideal) x0 x1 x3 x4 x11 x12 x13 x23 x24 x25
      = Cert.Layer.gwR 200000 (val_main_v9 (F := Ideal) x0 x3 x4) (val_main_v13 (F := Ideal) x4) x1 x11 x12 x13 x23 x24 x25 := by
  funext i
  -- the hidden row read by the product is row `row i`; the weight column, the offset and the slope have one entry each
  have c1 : ∀ k : Fin 256, Cert.Layer.row (lidx_main_v100 i k) = Cert.Layer.row i := fun k => rfl
  have c2 : ∀ k : Fin 256, Cert.Layer.col (lidx_main_v100 i k) = k := fun k => rfl
  have c3 : ∀ k : Fin 256, ridx_main_v100 i k = ix2 k (0 : Fin 1) := fun k => funext fun a => by
    match a with
    | ⟨0, _⟩ => rfl
    | ⟨1, _⟩ => exact Fin.ext (Nat.lt_one_iff.mp (i 1).isLt)
  have c4 : idx_main_v101 (idx_main_v102 i) = ix1 (0 : Fin 1) := eq_ix1 _
  have c5 : idx_main_v106 (idx_main_v107 i) = ix1 (0 : Fin 1) := eq_ix1 _
  unfold Cert.Layer.gwR Cert.Layer.prelu
  rw [val_main_v109_apply, val_main_v105_apply, val_main_v108_apply, val_main_v107_apply, val_main_v106_apply, val_main_v103_apply,
    val_main_v102_apply, val_main_v101_apply, val_main_v100_apply, val_main_v104_apply, val_main_cst_22_apply]
  simp only [hidden_eq, c1, c2, c3, c4, c5]
  rfl

end Cert.ReferenceIdeal.RefValue

end
-- ==== Proof.Bridge.lean ====
import proofs.«425960_j50689204027567_2_alg».proof.Proof.Layer
import proofs.«425960_j50689204027567_2_alg».proof.Proof.LibLayout
import Idealize.ShloMosaic.Lib.ValueIdx
import Idealize.ShloMosaic.Lib.ValueLayout

/-!
  The kernel's order of addition and the reference's give the same arrays.

  One relation: the bias moves from last to the middle (addition of extended reals is commutative and
  associative), and the kernel's bias row is the reference's bias vector with a unit axis in front.
  Two relations: the kernel multiplies the root features once by the SUM of the two root weight matrices and
  adds the sum of the two biases; with real root features and real weights `x · (W₁ + W₂) = x · W₁ + x · W₂`.
  The scalar head: the kernel's weight ROW is the reference's weight COLUMN read along the other axis, so the
  row-wise sum of products is the matrix product's one column.
-/

open scoped BigOperators

namespace Cert.Layer

open Idealize.ShloMosaic Idealize.ShloMosaic.ValueIdx Cert.LibReal Cert.LibLayout

/-- One relation, entry by entry. -/
theorem sageKAt_eq (n : ℕ) (agg : A2 n 128) (cnt : A2 n 1) (x : A2 n 128) (wl wr : A2 128 256) (b : A1 256)
    (h : (⟨1, ![256]⟩ : Shape).ShapeCasts ⟨2, ![1, 256]⟩) (r : Fin n) (q : Fin 256) :
    sageKAt n agg cnt x wl wr (shapeCast ⟨2, ![1, 256]⟩ b h) r q = sageRAt n agg cnt x wl wr b r q := by
  unfold sageKAt sageRAt
  rw [shapeCast_a_1a_apply b h (0 : Fin 1) q]
  exact congrArg relu (Cert.Spec.one_relation _ _ _)

/-- One relation: the kernel's array is the reference's. -/
theorem sageK_eq (n : ℕ) (agg : A2 n 128) (cnt : A2 n 1) (x : A2 n 128) (wl wr : A2 128 256) (b : A1 256)
    (h : (⟨1, ![256]⟩ : Shape).ShapeCasts ⟨2, ![1, 256]⟩) :
    sageK n agg cnt x wl wr (shapeCast ⟨2, ![1, 256]⟩ b h) = sageR n agg cnt x wl wr b :=
  funext fun i => sageKAt_eq n agg cnt x wl wr b h (row i) (col i)

/-- The root term against a sum of two weight matrices splits, on real entries. -/
theorem root_add (n : ℕ) (x : A2 n 128) (w1 w2 : A2 128 256) (hx : ∀ i, IsReal (x i)) (h1 : ∀ i, IsReal (w1 i))
    (h2 : ∀ i, IsReal (w2 i)) (r : Fin n) (q : Fin 256) :
    root n x (fun i => w1 i + w2 i) r q = root n x w1 r q + root n x w2 r q := by
  unfold root
  exact Cert.Spec.sum_mul_add (fun k => x (ix2 r k)) (fun k => w1 (ix2 k q)) (fun k => w2 (ix2 k q))
    (fun k => hx _) (fun k => h1 _) (fun k => h2 _)

/-- Two relations: the kernel's array, over the summed root weights and the summed bias, is the reference's. -/
theorem psK_eq (n : ℕ) (agg1 : A2 n 128) (cnt1 : A2 n 1) (agg2 : A2 n 128) (cnt2 : A2 n 1) (x : A2 n 128)
    (wl1 wr1 : A2 128 256) (b1 : A1 256) (wl2 wr2 : A2 128 256) (b2 : A1 256)
    (h : (⟨1, ![256]⟩ : Shape).ShapeCasts ⟨2, ![1, 256]⟩)
    (hx : ∀ i, IsReal (x i)) (h1 : ∀ i, IsReal (wr1 i)) (h2 : ∀ i, IsReal (wr2 i)) :
    psK n agg1 cnt1 agg2 cnt2 x wl1 wl2 (fun i => wr1 i + wr2 i) (shapeCast ⟨2, ![1, 256]⟩ (fun i => b1 i + b2 i) h)
      = psR n agg1 cnt1 agg2 cnt2 x wl1 wr1 b1 wl2 wr2 b2 := by
  funext i
  unfold psK psR
  rw [shapeCast_a_1a_apply (fun i => b1 i + b2 i) h (0 : Fin 1) (col i), root_add n x wr1 wr2 hx h1 h2]
  exact congrArg relu (Cert.Spec.two_relations _ _ _ _ _ _)

/-- The scalar head: the kernel's array is the reference's. -/
theorem gwK_eq (n : ℕ) (agg : A2 n 128) (cnt : A2 n 1) (x : A2 n 128) (wl wr : A2 128 256) (b : A1 256)
    (wlin : A2 256 1) (blin : A1 1) (pw : A1 1)
    (h : (⟨1, ![256]⟩ : Shape).ShapeCasts ⟨2, ![1, 256]⟩) (hw : (⟨2, ![256, 1]⟩ : Shape).ShapeCasts ⟨2, ![1, 256]⟩)
    (h1 : (⟨1, ![1]⟩ : Shape).ShapeCasts ⟨2, ![1, 1]⟩) :
    gwK n agg cnt x wl wr (shapeCast ⟨2, ![1, 256]⟩ b h) (shapeCast ⟨2, ![1, 256]⟩ wlin hw) (shapeCast ⟨2, ![1, 1]⟩ blin h1)
        (shapeCast ⟨2, ![1, 1]⟩ pw h1)
      = gwR n agg cnt x wl wr b wlin blin pw := by
  funext i
  unfold gwK gwR
  rw [shapeCast_a_1a_apply blin h1 (0 : Fin 1) (0 : Fin 1), shapeCast_a_1a_apply pw h1 (0 : Fin 1) (0 : Fin 1)]
  refine congrArg (fun s => prelu (s + blin (ix1 (0 : Fin 1))) (pw (ix1 (0 : Fin 1)))) ?_
  refine Finset.sum_congr rfl fun j _ => ?_
  rw [sageKAt_eq n agg cnt x wl wr b h (row i) j, shapeCast_a1_1a_apply wlin hw (0 : Fin 1) j]

end Cert.Layer
-- ==== Proof.Fin.lean ====
import proofs.«425960_j50689204027567_2_alg».proof.Defs
import proofs.«425960_j50689204027567_2_alg».proof.Proof.Gen.Pre_finite_inputs
import proofs.«425960_j50689204027567_2_alg».proof.Proof.Gen.KernelIdeal
import proofs.«425960_j50689204027567_2_alg».proof.Proof.LibReal
import Idealize.ShloMosaic.Lib.ReduceAll
import Idealize.ShloMosaic.PureOps.Ideal.Laws

/-!
  From the precondition to real numbers: the precondition is the conjunction, over the float arguments, of
  "every entry's absolute value is below +inf"; for an extended real that says the entry is a real number.
  Used for the three arrays whose products are redistributed: the root features of the node type with two
  relations and that type's two root weight matrices.
-/

noncomputable section

namespace Cert.KernelIdeal.Fin

open Cert.KernelIdeal Idealize.ShloMosaic Idealize.ShloMosaic.TcCoe Idealize.SL.Sem Cert.LibReal

/-- An extended real whose absolute value `max x (-x)` compares below `⊤` is a real number. -/
theorem isReal_of_abs_lt_top (x : EReal) (e : Ideal.cmp .olt (max x (-x)) ⊤ = 1#1) : IsReal x := by
  have h3 : max x (-x) < ⊤ := by
    by_contra hn
    simp [Ideal.cmp, hn] at e
  obtain ⟨h4, h5⟩ := max_lt_iff.1 h3
  have htop : x ≠ ⊤ := ne_of_lt h4
  have hbot : x ≠ ⊥ := by
    rintro rfl
    simp at h5
  exact ⟨x.toReal, (EReal.coe_toReal htop hbot).symm⟩

/-- The word of `+inf` is `⊤`. -/
theorem ofBits_inf : Ideal.ofBits .f32 0x7F800000#32 = ⊤ := by simp [Ideal.ofBits, Ideal.ieee]

/-- If the conjunction over a whole array of "`|x| < +inf`" is 1, every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf (F := Ideal) x)
          (broadcastInDim s ![] hb (constant (F := Ideal) S_ .f32 0x7F800000#32)))
        (constantI S_ 1 1#1) hr hu j = 1#1)
    (i : s.Idx) : IsReal (x i) := by
  haveI : Subsingleton S_.Idx := ⟨fun a b => funext fun d => d.elim0⟩
  have h1 := Host.reduce_andi_all _ _ hr hu j e i
  have h2 : Ideal.cmp .olt (max (x i) (-(x i))) ⊤ = 1#1 := by
    rw [← ofBits_inf]; exact h1
  exact isReal_of_abs_lt_top _ h2

section Parts

open Cert.Pre_finite_inputs

/-- The last part: its value 1 makes the running conjunction it received 1. -/
theorem part5 (v83 : IVec S_ 1) (v84 : FVec Ideal S1 .f32) (cst : FVec Ideal S_ .f32) (j : S_.Idx)
    (e : fn_part5 (F := Ideal) v83 v84 cst j = 1#1) : v83 j = 1#1 := by
  unfold fn_part5 at e
  dsimp only at e
  exact (IntOp.andi_eq_one.1 e).1

/-- The fourth part: both conjuncts it received are 1. -/
theorem part4 (a22 : FVec Ideal S256 .f32) (a23 : FVec Ideal S256x1 .f32) (a24 a25 : FVec Ideal S1 .f32)
    (v63 v67 : IVec S_ 1) (j : S_.Idx)
    (e : fn_part4 (F := Ideal) a22 a23 a24 a25 v63 v67 j = 1#1) : v63 j = 1#1 ∧ v67 j = 1#1 := by
  unfold fn_part4 at e
  dsimp only at e
  have e1 := part5 _ _ _ j e
  have e2 := (IntOp.andi_eq_one.1 e1).1
  have e3 := (IntOp.andi_eq_one.1 e2).1
  have e4 := (IntOp.andi_eq_one.1 e3).1
  exact IntOp.andi_eq_one.1 e4

/-- The third part: the conjunction it received is 1 and the array of its third argument is real. -/
theorem part3 (a19 : FVec Ideal S256 .f32) (a20 a21 : FVec Ideal S128x256 .f32) (a22 : FVec Ideal S256 .f32)
    (a23 : FVec Ideal S256x1 .f32) (a24 a25 : FVec Ideal S1 .f32) (v48 : IVec S_ 1)
    (v49 v50 : FVec Ideal S128x256 .f32) (j : S_.Idx)
    (e : fn_part3 (F := Ideal) a19 a20 a21 a22 a23 a24 a25 v48 v49 v50 j = 1#1) :
    v48 j = 1#1 ∧ ∀ i, IsReal (a21 i) := by
  unfold fn_part3 at e
  dsimp only at e
  obtain ⟨e1, e2⟩ := part4 _ _ _ _ _ _ j e
  have e3 := (IntOp.andi_eq_one.1 e1).1
  have e4 := (IntOp.andi_eq_one.1 e3).1
  have e5 := (IntOp.andi_eq_one.1 e4).1
  exact ⟨e5, fun i => real_of_all a21 _ _ _ j e2 i⟩

/-- The second part: the conjunction it received is 1 and the arrays of its first and seventh arguments are real. -/
theorem part2 (a15 : FVec Ideal S128x256 .f32) (a16 : FVec Ideal S256 .f32) (a17 a18 : FVec Ideal S128x256 .f32)
    (a19 : FVec Ideal S256 .f32) (a20 a21 : FVec Ideal S128x256 .f32) (a22 : FVec Ideal S256 .f32)
    (a23 : FVec Ideal S256x1 .f32) (a24 a25 : FVec Ideal S1 .f32) (v33 : IVec S_ 1) (j : S_.Idx)
    (e : fn_part2 (F := Ideal) a15 a16 a17 a18 a19 a20 a21 a22 a23 a24 a25 v33 j = 1#1) :
    v33 j = 1#1 ∧ (∀ i, IsReal (a15 i)) ∧ ∀ i, IsReal (a21 i) := by
  unfold fn_part2 at e
  dsimp only at e
  obtain ⟨e1, r21⟩ := part3 _ _ _ _ _ _ _ _ _ _ j e
  have e2 := (IntOp.andi_eq_one.1 e1).1
  have e3 := (IntOp.andi_eq_one.1 e2).1
  obtain ⟨e4, e5⟩ := IntOp.andi_eq_one.1 e3
  exact ⟨e4, fun i => real_of_all a15 _ _ _ j e5 i, r21⟩

/-- The first part: the conjunction it received is 1 and the two weight arrays are real. -/
theorem part1 (a12 : FVec Ideal S128x256 .f32) (a13 : FVec Ideal S256 .f32) (a14 a15 : FVec Ideal S128x256 .f32)
    (a16 : FVec Ideal S256 .f32) (a17 a18 : FVec Ideal S128x256 .f32)
    (a19 : FVec Ideal S256 .f32) (a20 a21 : FVec Ideal S128x256 .f32) (a22 : FVec Ideal S256 .f32)
    (a23 : FVec Ideal S256x1 .f32) (a24 a25 : FVec Ideal S1 .f32) (v13 : IVec S_ 1) (v16 : IVec S128x256 1)
    (j : S_.Idx)
    (e : fn_part1 (F := Ideal) a12 a13 a14 a15 a16 a17 a18 a19 a20 a21 a22 a23 a24 a25 v13 v16 j = 1#1) :
    v13 j = 1#1 ∧ (∀ i, IsReal (a15 i)) ∧ ∀ i, IsReal (a21 i) := by
  unfold fn_part1 at e
  dsimp only at e
  obtain ⟨e1, r15, r21⟩ := part2 _ _ _ _ _ _ _ _ _ _ _ _ j e
  have e2 := (IntOp.andi_eq_one.1 e1).1
  have e3 := (IntOp.andi_eq_one.1 e2).1
  have e4 := (IntOp.andi_eq_one.1 e3).1
  have e5 := (IntOp.andi_eq_one.1 e4).1
  exact ⟨e5, r15, r21⟩

/-- The whole predicate: its value 1 makes the three arrays real. -/
theorem whole (a0 : FVec Ideal S100000x128 .f32) (a1 : FVec Ideal S200000x128 .f32)
    (a2 : FVec Ideal S100000x128 .f32) (a3 a4 a5 a6 a7 a8 a9 a10 : IVec S400000 32)
    (a11 a12 : FVec Ideal S128x256 .f32) (a13 : FVec Ideal S256 .f32) (a14 a15 : FVec Ideal S128x256 .f32)
    (a16 : FVec Ideal S256 .f32) (a17 a18 : FVec Ideal S128x256 .f32)
    (a19 : FVec Ideal S256 .f32) (a20 a21 : FVec Ideal S128x256 .f32) (a22 : FVec Ideal S256 .f32)
    (a23 : FVec Ideal S256x1 .f32) (a24 a25 : FVec Ideal S1 .f32) (j : S_.Idx)
    (e : fn (F := Ideal) a0 a1 a2 a3 a4 a5 a6 a7 a8 a9 a10 a11 a12 a13 a14 a15 a16 a17 a18 a19 a20 a21 a22 a23
      a24 a25 j = 1#1) :
    (∀ i, IsReal (a0 i)) ∧ (∀ i, IsReal (a15 i)) ∧ ∀ i, IsReal (a21 i) := by
  unfold fn at e
  dsimp only at e
  obtain ⟨e1, r15, r21⟩ := part1 _ _ _ _ _ _ _ _ _ _ _ _ _ _ _ _ j e
  have e2 := (IntOp.andi_eq_one.1 e1).1
  have e3 := (IntOp.andi_eq_one.1 e2).1
  exact ⟨fun i => real_of_all a0 _ _ _ j e3 i, r15, r21⟩

end Parts

variable (m : (ℓ : Loc nD τ sig) → Buf (Elt Ideal) ℓ)

/-- The precondition at one device: the three arrays are real. -/
theorem real_all (h : Cert.Pre_KernelIdeal m) (c : Dev nD) :
    (∀ i, IsReal (m ((c.tc : Thread nD τ).loc main_arg0) i))
      ∧ (∀ i, IsReal (m ((c.tc : Thread nD τ).loc main_arg15) i))
      ∧ ∀ i, IsReal (m ((c.tc : Thread nD τ).loc main_arg21) i) :=
  whole _ _ _ _ _ _ _ _ _ _ _ _ _ _ _ _ _ _ _ _ _ _ _ _ _ _ (fun a => a.elim0) (congrFun (h c) (fun a => a.elim0))

/-- The root features `x_ps`. -/
theorem real_arg0 (h : Cert.Pre_KernelIdeal m) (c : Dev nD) (i : S100000x128.Idx) :
    IsReal (m ((c.tc : Thread nD τ).loc main_arg0) i) :=
  (real_all m h c).1 i

/-- The root weights of the first relation into that node type. -/
theorem real_arg15 (h : Cert.Pre_KernelIdeal m) (c : Dev nD) (i : S128x256.Idx) :
    IsReal (m ((c.tc : Thread nD τ).loc main_arg15) i) :=
  (real_all m h c).2.1 i

/-- The root weights of the second relation into that node type. -/
theorem real_arg21 (h : Cert.Pre_KernelIdeal m) (c : Dev nD) (i : S128x256.Idx) :
    IsReal (m ((c.tc : Thread nD τ).loc main_arg21) i) :=
  (real_all m h c).2.2 i

end Cert.KernelIdeal.Fin

end
-- ==== Proof.lean ====
/-
  Three node types' new features from a heterogeneous graph: for each relation the neighbour rows are gathered,
  summed per destination node and counted by host operations that both programs apply alike; then, per node
  type, `relu (mean · Wl + x · Wr + b)` with `mean = agg / max (cnt, 1)`, summed over the relations that reach the
  type, and for one type a linear map to a single column followed by a leaky slope.  The kernel program does the
  dense part in three pallas_calls over row blocks and adds the terms in another order than the reference; for the
  type with two relations it multiplies the root features once by the sum of the two root weight matrices.

  At the ideal instance the two programs agree entry by entry: the gather / scatter-add terms are the same terms
  of the same arguments; sums of extended reals may be reordered freely; and `x · (W₁ + W₂) = x · W₁ + x · W₂` holds
  because the precondition makes the root features and the root weights real numbers.

  The frames of the two kernel programs are the generated ones; the reference's frame is its generated run.  The
  kernel program's run with its three results named is the generated frame's launch called once more; each
  result is read back through the run's fold to its own region's write-backs, each region's write-backs tile
  its output with the layer function of the arrays it was entered with, and those arrays are read back to the
  arguments.
-/
import proofs.«425960_j50689204027567_2_alg».proof.Defs
import proofs.«425960_j50689204027567_2_alg».proof.Proof.Gen.Kernel
import proofs.«425960_j50689204027567_2_alg».proof.Proof.Gen.Kernel.Skeleton
import proofs.«425960_j50689204027567_2_alg».proof.Proof.Gen.Kernel.Launch
import proofs.«425960_j50689204027567_2_alg».proof.Proof.Gen.Kernel.Points
import proofs.«425960_j50689204027567_2_alg».proof.Proof.Gen.Kernel.Frame
import proofs.«425960_j50689204027567_2_alg».proof.Proof.Gen.KernelIdeal
import proofs.«425960_j50689204027567_2_alg».proof.Proof.Gen.KernelIdeal.Skeleton
import proofs.«425960_j50689204027567_2_alg».proof.Proof.Gen.KernelIdeal.Launch
import proofs.«425960_j50689204027567_2_alg».proof.Proof.Gen.KernelIdeal.Points
import proofs.«425960_j50689204027567_2_alg».proof.Proof.Gen.KernelIdeal.Frame
import proofs.«425960_j50689204027567_2_alg».proof.Proof.Gen.ReferenceIdeal
import proofs.«425960_j50689204027567_2_alg».proof.Proof.Gen.ReferenceIdeal.Run
import proofs.«425960_j50689204027567_2_alg».proof.Proof.Gen.ReferenceIdeal.Read
import proofs.«425960_j50689204027567_2_alg».proof.Proof.Gen.Pre_finite_inputs
import proofs.«425960_j50689204027567_2_alg».proof.Proof.KRun
import proofs.«425960_j50689204027567_2_alg».proof.Proof.KWalk
import proofs.«425960_j50689204027567_2_alg».proof.Proof.KSw
import proofs.«425960_j50689204027567_2_alg».proof.Proof.KPs
import proofs.«425960_j50689204027567_2_alg».proof.Proof.KGw
import proofs.«425960_j50689204027567_2_alg».proof.Proof.RefValue
import proofs.«425960_j50689204027567_2_alg».proof.Proof.Bridge
import proofs.«425960_j50689204027567_2_alg».proof.Proof.Fin
import Idealize.ShloMosaic.Adequacy
import Idealize.ShloMosaic.Init

noncomputable section

namespace Cert.Proof

open Idealize.ShloMosaic Idealize.SL.Sem

/-! ## The three results as functions of the kernel program's launch memory -/

section Results

variable (m : (ℓ : Loc Cert.KernelIdeal.nD Cert.KernelIdeal.τ Cert.KernelIdeal.sig) → Buf (Elt Ideal) ℓ)

/-- The scalar head's column, in the reference's order of addition. -/
def resGw (c : Dev Cert.KernelIdeal.nD) : Cert.Layer.A2 200000 1 :=
  Cert.Layer.gwR 200000 (Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.ReferenceIdeal.Read.val_main_v13 (F := Ideal) (m ((c.tc : Thread Cert.KernelIdeal.nD Cert.KernelIdeal.τ).loc Cert.KernelIdeal.main_arg4)))
    (m ((c.tc : Thread Cert.KernelIdeal.nD Cert.KernelIdeal.τ).loc Cert.KernelIdeal.main_arg1)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))

/-- The node type with two relations. -/
def resPs (c : Dev Cert.KernelIdeal.nD) : Cert.Layer.A2 100000 256 :=
  Cert.Layer.psR 100000 (Cert.ReferenceIdeal.Read.val_main_v33 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.ReferenceIdeal.Read.val_main_v37 (F := Ideal) (m ((c.tc : Thread Cert.KernelIdeal.nD Cert.KernelIdeal.τ).loc Cert.KernelIdeal.main_arg6)))
    (Cert.ReferenceIdeal.Read.val_main_v57 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.ReferenceIdeal.Read.val_main_v61 (F := Ideal) (m ((c.tc : Thread Cert.KernelIdeal.nD Cert.KernelIdeal.τ).loc Cert.KernelIdeal.main_arg10)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))

/-- The node type with one relation and 100000 rows. -/
def resSw (c : Dev Cert.KernelIdeal.nD) : Cert.Layer.A2 100000 256 :=
  Cert.Layer.sageR 100000 (Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.ReferenceIdeal.Read.val_main_v86 (F := Ideal) (m ((c.tc : Thread Cert.KernelIdeal.nD Cert.KernelIdeal.τ).loc Cert.KernelIdeal.main_arg8)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))

end Results

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! The kernel program's results: each read back through the run to its region's write-backs, these to the layer
    function in the kernel's order, and that to the reference's order. -/

set_option maxHeartbeats 4000000 in
theorem kernel_gw (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v66) = resGw m c := by
  refine (Cert.KernelIdeal.KWalk.out_v66 m ρ c).trans ((Cert.KernelIdeal.KGw.final (Cert.KernelIdeal.Gen.V5 m ρ) c).trans ?_)
  rw [Cert.KernelIdeal.KWalk.in2_0 m ρ c, Cert.KernelIdeal.KWalk.in2_1 m ρ c, Cert.KernelIdeal.KWalk.in2_2 m ρ c,
    Cert.KernelIdeal.KWalk.in2_3 m ρ c, Cert.KernelIdeal.KWalk.in2_4 m ρ c, Cert.KernelIdeal.KWalk.in2_5 m ρ c,
    Cert.KernelIdeal.KWalk.in2_6 m ρ c, Cert.KernelIdeal.KWalk.in2_7 m ρ c, Cert.KernelIdeal.KWalk.in2_8 m ρ c]
  exact Cert.Layer.gwK_eq 200000 _ _ _ _ _ _ _ _ _ _ _ _

set_option maxHeartbeats 4000000 in
theorem kernel_ps (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W6 m ρ c (Proc.devRef .tc Cert.KernelIdeal.main_v61) = resPs m c := by
  refine (Cert.KernelIdeal.KWalk.out_v61 m ρ c).trans ((Cert.KernelIdeal.KPs.final (Cert.KernelIdeal.Gen.V3 m ρ) c).trans ?_)
  rw [Cert.KernelIdeal.KWalk.in1_0 m ρ c, Cert.KernelIdeal.KWalk.in1_1 m ρ c, Cert.KernelIdeal.KWalk.in1_2 m ρ c,
    Cert.KernelIdeal.KWalk.in1_3 m ρ c, Cert.KernelIdeal.KWalk.in1_4 m ρ c, Cert.KernelIdeal.KWalk.in1_5 m ρ c,
    Cert.KernelIdeal.KWalk.in1_6 m ρ c, Cert.KernelIdeal.KWalk.in1_7 m ρ c, Cert.KernelIdeal.KWalk.in1_8 m ρ c]
  exact Cert.Layer.psK_eq 100000 _ _ _ _ _ _ _ _ _ _ _ _
    (fun i => Cert.KernelIdeal.Fin.real_arg0 m hpre c i) (fun i => Cert.KernelIdeal.Fin.real_arg15 m hpre c i)
    (fun i => Cert.KernelIdeal.Fin.real_arg21 m hpre c i)

set_option maxHeartbeats 4000000 in
theorem kernel_sw (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v57) = resSw m c := by
  refine (Cert.KernelIdeal.KWalk.out_v57 m ρ c).trans ((Cert.KernelIdeal.KSw.final (Cert.KernelIdeal.Gen.V1 m ρ) c).trans ?_)
  rw [Cert.KernelIdeal.KWalk.in0_0 m ρ c, Cert.KernelIdeal.KWalk.in0_1 m ρ c, Cert.KernelIdeal.KWalk.in0_2 m ρ c,
    Cert.KernelIdeal.KWalk.in0_3 m ρ c, Cert.KernelIdeal.KWalk.in0_4 m ρ c, Cert.KernelIdeal.KWalk.in0_5 m ρ c]
  exact Cert.Layer.sageK_eq 100000 _ _ _ _ _ _ _

set_option maxHeartbeats 4000000 in
/-- At the ideal instance the two programs end with equal results. -/
theorem algebraic : Cert.algebraic_KernelIdeal_ReferenceIdeal := by
  intro m ρ m' ρ' hpre hagree
  refine ⟨fun c => resGw m c, fun c => resPs m c, fun c => resSw m c, ?_, ?_⟩
  · refine (θ_run Cert.KernelIdeal.defs _ _).mono (fun r h c => ?_) (Cert.KernelIdeal.KRun.run_named (F := Ideal) m ρ)
    obtain ⟨h66, h61, h57, hargs⟩ := h c
    exact ⟨h66.trans (kernel_gw m ρ c), h61.trans (kernel_ps m ρ hpre c), h57.trans (kernel_sw m ρ c), hargs⟩
  · refine (θ_run Cert.ReferenceIdeal.defs _ _).mono (fun r h c => ?_) (Cert.ReferenceIdeal.Value.run (F := Ideal) m' ρ')
    obtain ⟨h109, h98, h99, hargs⟩ := h c
    obtain ⟨e0, e1, e2, e3, e4, e5, e6, e7, e8, e9, e10, e11, e12, e13, e14, e15, e16, e17, e18, e19, e20, e21, e22, e23, e24, e25⟩ := hagree c
    refine ⟨h109.trans ?_, h98.trans ?_, h99.trans ?_, hargs⟩
    · rw [Cert.ReferenceIdeal.Read.val_main_v109_eq, Cert.ReferenceIdeal.RefValue.gw_eq, e0, e1, e3, e4, e11, e12, e13, e23, e24, e25]
      rfl
    · rw [Cert.ReferenceIdeal.Read.val_main_v98_eq, Cert.ReferenceIdeal.RefValue.ps_eq, e0, e1, e2, e5, e6, e9, e10, e14, e15, e16, e20, e21, e22]
      rfl
    · rw [Cert.ReferenceIdeal.Read.val_main_v99_eq, Cert.ReferenceIdeal.RefValue.sw_eq, e0, e2, e7, e8, e17, e18, e19]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
